-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)) (v2 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4 : Shape := ⟨2, ![4096, 4]⟩
abbrev S4096 : Shape := ⟨1, ![4096]⟩
abbrev S100000x64 : Shape := ⟨2, ![100000, 64]⟩
abbrev S500000 : Shape := ⟨1, ![500000]⟩
abbrev S32x32 : Shape := ⟨2, ![32, 32]⟩
abbrev S32 : Shape := ⟨1, ![32]⟩
abbrev S64x32 : Shape := ⟨2, ![64, 32]⟩
abbrev S_ : Shape := ⟨0, ![]⟩

class Facts : Prop where
  bcast_S_S32x32 : S_.BroadcastsInDim S32x32 (![] : Fin 0 → Fin S32x32.rank)
  reducesTo_S32x32_S_d0_1 : S32x32.ReducesTo [0, 1] S_
  h_S_ : 0 < S_.numel
  bcast_S_S32 : S_.BroadcastsInDim S32 (![] : Fin 0 → Fin S32.rank)
  reducesTo_S32_S_d0 : S32.ReducesTo [0] S_
  bcast_S_S64x32 : S_.BroadcastsInDim S64x32 (![] : Fin 0 → Fin S64x32.rank)
  reducesTo_S64x32_S_d0_1 : S64x32.ReducesTo [0, 1] S_
  bcast_S_S4096 : S_.BroadcastsInDim S4096 (![] : Fin 0 → Fin S4096.rank)
  reducesTo_S4096_S_d0 : S4096.ReducesTo [0] S_
  bcast_S_S500000 : S_.BroadcastsInDim S500000 (![] : Fin 0 → Fin S500000.rank)
  reducesTo_S500000_S_d0 : S500000.ReducesTo [0] S_

variable [Facts]

def fn_part2 {F : FTy → Type} [FloatOps F] (main_arg4 : IVec S500000 32) (main_v31 : IVec S_ 1) (main_v32 : IVec S500000 32) : IVec S_ 1 :=
  let main_v33 : IVec S500000 1 := cmpi .sge main_arg4 main_v32
  let main_c_13 : IVec S_ 1 := constantI S_ 1 1#1
  let main_v34 : IVec S_ 1 := (fun x v => Host.reduce IntOp.andi x v reducesTo_S500000_S_d0 h_S_) main_v33 main_c_13
  let main_v35 : IVec S_ 1 := andi main_v31 main_v34
  let main_c_14 : IVec S_ 32 := constantI S_ 32 32#32
  let main_v36 : IVec S500000 32 := broadcastInDim S500000 ![] bcast_S_S500000 main_c_14
  let main_v37 : IVec S500000 1 := cmpi .slt main_arg4 main_v36
  let main_c_15 : IVec S_ 1 := constantI S_ 1 1#1
  let main_v38 : IVec S_ 1 := (fun x v => Host.reduce IntOp.andi x v reducesTo_S500000_S_d0 h_S_) main_v37 main_c_15
  let main_v39 : IVec S_ 1 := andi main_v35 main_v38
  main_v39

def fn_part1 {F : FTy → Type} [FloatOps F] (main_arg2 : IVec S4096 32) (main_arg4 : IVec S500000 32) (main_arg10 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg10
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_c_8 : IVec S_ 32 := constantI S_ 32 0#32
  let main_v24 : IVec S4096 32 := broadcastInDim S4096 ![] bcast_S_S4096 main_c_8
  let main_v25 : IVec S4096 1 := cmpi .sge main_arg2 main_v24
  let main_c_9 : IVec S_ 1 := constantI S_ 1 1#1
  let main_v26 : IVec S_ 1 := (fun x v => Host.reduce IntOp.andi x v reducesTo_S4096_S_d0 h_S_) main_v25 main_c_9
  let main_v27 : IVec S_ 1 := andi main_v23 main_v26
  let main_c_10 : IVec S_ 32 := constantI S_ 32 32#32
  let main_v28 : IVec S4096 32 := broadcastInDim S4096 ![] bcast_S_S4096 main_c_10
  let main_v29 : IVec S4096 1 := cmpi .slt main_arg2 main_v28
  let main_c_11 : IVec S_ 1 := constantI S_ 1 1#1
  let main_v30 : IVec S_ 1 := (fun x v => Host.reduce IntOp.andi x v reducesTo_S4096_S_d0 h_S_) main_v29 main_c_11
  let main_v31 : IVec S_ 1 := andi main_v27 main_v30
  let main_c_12 : IVec S_ 32 := constantI S_ 32 0#32
  let main_v32 : IVec S500000 32 := broadcastInDim S500000 ![] bcast_S_S500000 main_c_12
  fn_part2 (F := F) main_arg4 main_v31 main_v32

def fn {F : FTy → Type} [FloatOps F] (main_arg0 : IVec S4096x4 32) (main_arg1 : IVec S4096 32) (main_arg2 : IVec S4096 32) (main_arg3 : IVec S100000x64 32) (main_arg4 : IVec S500000 32) (main_arg5 : IVec S100000x64 32) (main_arg6 : FVec F S32x32 .f32) (main_arg7 : FVec F S32x32 .f32) (main_arg8 : FVec F S32 .f32) (main_arg9 : FVec F S64x32 .f32) (main_arg10 : FVec F S32 .f32) : IVec S_ 1 :=
  let main_v0 : FVec F S32x32 .f32 := Host.absf main_arg6
  let main_cst : FVec F S_ .f32 := constant S_ .f32 0x7F800000#32
  let main_v1 : FVec F S32x32 .f32 := broadcastInDim S32x32 ![] bcast_S_S32x32 main_cst
  let main_v2 : IVec S32x32 1 := cmpf .olt main_v0 main_v1
  let main_c : IVec S_ 1 := constantI S_ 1 1#1
  let main_v3 : IVec S_ 1 := (fun x v => Host.reduce IntOp.andi x v reducesTo_S32x32_S_d0_1 h_S_) main_v2 main_c
  let main_v4 : FVec F S32x32 .f32 := Host.absf main_arg7
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg8
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S64x32 .f32 := Host.absf main_arg9
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg2 main_arg4 main_arg10 main_v13 main_v16
-- ==== Kernel.lean ====
abbrev S4096x4 : Shape := ⟨2, ![4096, 4]⟩
abbrev S4096 : Shape := ⟨1, ![4096]⟩
abbrev S100000x64 : Shape := ⟨2, ![100000, 64]⟩
abbrev S500000 : Shape := ⟨1, ![500000]⟩
abbrev S32x32 : Shape := ⟨2, ![32, 32]⟩
abbrev S32 : Shape := ⟨1, ![32]⟩
abbrev S64x32 : Shape := ⟨2, ![64, 32]⟩
abbrev S16384 : Shape := ⟨1, ![16384]⟩
abbrev S_ : Shape := ⟨0, ![]⟩
abbrev S16384x1 : Shape := ⟨2, ![16384, 1]⟩
abbrev S16384x64 : Shape := ⟨2, ![16384, 64]⟩
abbrev S1048576 : Shape := ⟨1, ![1048576]⟩
abbrev S1048576x1 : Shape := ⟨2, ![1048576, 1]⟩
abbrev S4096x4x64 : Shape := ⟨3, ![4096, 4, 64]⟩
abbrev S4096x1 : Shape := ⟨2, ![4096, 1]⟩
abbrev S1x32 : Shape := ⟨2, ![1, 32]⟩
abbrev S4096x32 : Shape := ⟨2, ![4096, 32]⟩
abbrev S256x4x64 : Shape := ⟨3, ![256, 4, 64]⟩
abbrev S256x1 : Shape := ⟨2, ![256, 1]⟩
abbrev S256x32 : Shape := ⟨2, ![256, 32]⟩
abbrev S256x64x32 : Shape := ⟨3, ![256, 64, 32]⟩
abbrev S256x1x64 : Shape := ⟨3, ![256, 1, 64]⟩
abbrev S256x64 : Shape := ⟨2, ![256, 64]⟩
abbrev S256 : Shape := ⟨1, ![256]⟩
abbrev S256x64x1 : Shape := ⟨3, ![256, 64, 1]⟩
abbrev S4096x64 : Shape := ⟨2, ![4096, 64]⟩

abbrev nBuf : Space → Nat
  | .hbm => 52
  | .vmem => 21
  | .smem => 0
  | _ => 0

abbrev bufTy : (tb : Table) → Fin (tcTables nBuf tb) → BufTy
  | .hbm, ⟨0, _⟩ => ⟨S4096x4, .i32⟩
  | .hbm, ⟨1, _⟩ => ⟨S4096, .i32⟩
  | .hbm, ⟨2, _⟩ => ⟨S4096, .i32⟩
  | .hbm, ⟨3, _⟩ => ⟨S100000x64, .i32⟩
  | .hbm, ⟨4, _⟩ => ⟨S500000, .i32⟩
  | .hbm, ⟨5, _⟩ => ⟨S100000x64, .i32⟩
  | .hbm, ⟨6, _⟩ => ⟨S32x32, .f32⟩
  | .hbm, ⟨7, _⟩ => ⟨S32x32, .f32⟩
  | .hbm, ⟨8, _⟩ => ⟨S32, .f32⟩
  | .hbm, ⟨9, _⟩ => ⟨S64x32, .f32⟩
  | .hbm, ⟨10, _⟩ => ⟨S32, .f32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S16384x64, .i32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S16384x1, .i32⟩
  | .hbm, ⟨29, _⟩ => ⟨S16384x64, .i32⟩
  | .hbm, ⟨30, _⟩ => ⟨S16384x64, .f32⟩
  | .hbm, ⟨31, _⟩ => ⟨S1048576, .i32⟩
  | .hbm, ⟨32, _⟩ => ⟨S_, .i32⟩
  | .hbm, ⟨33, _⟩ => ⟨S1048576, .i32⟩
  | .hbm, ⟨34, _⟩ => ⟨S1048576, .i1⟩
  | .hbm, ⟨35, _⟩ => ⟨S_, .i32⟩
  | .hbm, ⟨36, _⟩ => ⟨S1048576, .i32⟩
  | .hbm, ⟨37, _⟩ => ⟨S1048576, .i32⟩
  | .hbm, ⟨38, _⟩ => ⟨S1048576, .i32⟩
  | .hbm, ⟨39, _⟩ => ⟨S1048576x1, .i32⟩
  | .hbm, ⟨40, _⟩ => ⟨S1048576, .i32⟩
  | .hbm, ⟨41, _⟩ => ⟨S4096x4x64, .i32⟩
  | .hbm, ⟨42, _⟩ => ⟨S4096x4x64, .f32⟩
  | .hbm, ⟨43, _⟩ => ⟨S4096x4x64, .i32⟩
  | .hbm, ⟨44, _⟩ => ⟨S4096x1, .i32⟩
  | .hbm, ⟨45, _⟩ => ⟨S4096x1, .i32⟩
  | .hbm, ⟨46, _⟩ => ⟨S1x32, .f32⟩
  | .hbm, ⟨47, _⟩ => ⟨S1x32, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S4096x64, .f32⟩
  | .local _ .vmem, ⟨0, _⟩ => ⟨S256x4x64, .i32⟩
  | .local _ .vmem, ⟨1, _⟩ => ⟨S256x4x64, .i32⟩
  | .local _ .vmem, ⟨2, _⟩ => ⟨S256x4x64, .i32⟩
  | .local _ .vmem, ⟨3, _⟩ => ⟨S256x4x64, .i32⟩
  | .local _ .vmem, ⟨4, _⟩ => ⟨S256x4x64, .f32⟩
  | .local _ .vmem, ⟨5, _⟩ => ⟨S256x4x64, .f32⟩
  | .local _ .vmem, ⟨6, _⟩ => ⟨S256x1, .i32⟩
  | .local _ .vmem, ⟨7, _⟩ => ⟨S256x1, .i32⟩
  | .local _ .vmem, ⟨8, _⟩ => ⟨S256x1, .i32⟩
  | .local _ .vmem, ⟨9, _⟩ => ⟨S256x1, .i32⟩
  | .local _ .vmem, ⟨10, _⟩ => ⟨S32x32, .f32⟩
  | .local _ .vmem, ⟨11, _⟩ => ⟨S32x32, .f32⟩
  | .local _ .vmem, ⟨12, _⟩ => ⟨S1x32, .f32⟩
  | .local _ .vmem, ⟨13, _⟩ => ⟨S64x32, .f32⟩
  | .local _ .vmem, ⟨14, _⟩ => ⟨S1x32, .f32⟩
  | .local _ .vmem, ⟨15, _⟩ => ⟨S256x32, .f32⟩
  | .local _ .vmem, ⟨16, _⟩ => ⟨S256x32, .f32⟩
  | .local _ .vmem, ⟨17, _⟩ => ⟨S256x32, .f32⟩
  | .local _ .vmem, ⟨18, _⟩ => ⟨S256x32, .f32⟩
  | .local _ .vmem, ⟨19, _⟩ => ⟨S256x32, .f32⟩
  | .local _ .vmem, ⟨20, _⟩ => ⟨S256x32, .f32⟩
  | _, _ => ⟨S4096x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31_0 : Ref sig .tc := ⟨.hbm, 48, rfl⟩
abbrev main_v31_1 : Ref sig .tc := ⟨.hbm, 49, rfl⟩
abbrev main_v31_2 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S4096x4_S16384 : S4096x4.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  shapeCasts_S16384x64_S1048576 : S16384x64.ShapeCasts S1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  shapeCasts_S16384x64_S4096x4x64 : S16384x64.ShapeCasts S4096x4x64
  shapeCasts_S1048576_S4096x4x64 : S1048576.ShapeCasts S4096x4x64
  shapeCasts_S4096_S4096x1 : S4096.ShapeCasts S4096x1
  shapeCasts_S32_S1x32 : S32.ShapeCasts S1x32
  inb_S32x32_S32x32_0_0 : ∀ a, (![0, 0] : Fin 2 → Nat) a + S32x32.size a ≤ S32x32.size a
  h_S32x32 : 0 < S32x32.numel
  bitsLt_bf16_f32 : FTy.bits .bf16 < FTy.bits .f32
  iota_S256x64x32_d2_w32 : S256x64x32.Iotas .tc 32 [2]
  inb_S256x4x64_S256x1x64_0_0_0 : ∀ a, (![0, 0, 0] : Fin 3 → Nat) a + S256x1x64.size a ≤ S256x4x64.size a
  h_S256x1x64 : 0 < S256x1x64.numel
  shapeCasts_S256x1x64_S256x64 : S256x1x64.ShapeCasts S256x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x64 : S256x1.Broadcasts S256x64
  natLt_1_32 : 1 < 32
  reduces_S256x64_S256 : S256x64.Reduces [1] S256
  shapeCasts_S256_S256x1 : S256.ShapeCasts S256x1
  shapeCasts_S256x64_S256x64x1 : S256x64.ShapeCasts S256x64x1
  broadcasts_S256x64x1_S256x64x32 : S256x64x1.Broadcasts S256x64x32
  reduces_S256x64x32_S256x32 : S256x64x32.Reduces [1] S256x32
  broadcasts_S256x1_S256x32 : S256x1.Broadcasts S256x32
  inb_S256x4x64_S256x1x64_0_1_0 : ∀ a, (![0, 1, 0] : Fin 3 → Nat) a + S256x1x64.size a ≤ S256x4x64.size a
  inb_S256x4x64_S256x1x64_0_2_0 : ∀ a, (![0, 2, 0] : Fin 3 → Nat) a + S256x1x64.size a ≤ S256x4x64.size a
  inb_S256x4x64_S256x1x64_0_3_0 : ∀ a, (![0, 3, 0] : Fin 3 → Nat) a + S256x1x64.size a ≤ S256x4x64.size a
  iota_S256x32_d1_w32 : S256x32.Iotas .tc 32 [1]
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S64x32_S64x32_0_0 : ∀ a, (![0, 0] : Fin 2 → Nat) a + S64x32.size a ≤ S64x32.size a
  h_S64x32 : 0 < S64x32.numel
  inb_S256x32_S256x32_0_0 : ∀ a, (![0, 0] : Fin 2 → Nat) a + S256x32.size a ≤ S256x32.size a
  h_S256x32 : 0 < S256x32.numel
  concatenates_S4096x32_S4096x32_S4096x64_d1 : Shape.Concatenates [S4096x32, S4096x32] S4096x64 1
  gather_S100000x64_S16384x1_S16384x64_1_0_n_n_0_1_164_wf : GatherDims.WF S100000x64 S16384x1 S16384x64 [1] [0] [] [0] [] 1 ![1, 64]
  gather_S500000_S1048576x1_S1048576_n_0_n_n_0_1_1_wf : GatherDims.WF S500000 S1048576x1 S1048576 [] [0] [] [0] [] 1 ![1]
  dot_S256x32_S32x32_S256x32_1_0_0_1_n_n_wf : DotDims.WF S256x32 S32x32 S256x32 [1] [0] [0] [1] [] []
  dot_S256x64_S64x32_S256x32_1_0_0_1_n_n_wf : DotDims.WF S256x64 S64x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4x64.size a ≤ S4096x4x64.size a
  hwx0_0 : ∀ i : grid0.Coords, EltTy.bits .i32 = 32 ∨ (Rect.block (s := S4096x4x64) S256x4x64.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4x64.size a ≤ S4096x4x64.size a
  hwx0_1 : ∀ i : grid0.Coords, EltTy.bits .i32 = 32 ∨ (Rect.block (s := S4096x4x64) S256x4x64.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4x64.size a ≤ S4096x4x64.size a
  hwx0_2 : ∀ i : grid0.Coords, EltTy.bits .f32 = 32 ∨ (Rect.block (s := S4096x4x64) S256x4x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .i32 = 32 ∨ (Rect.block (s := S4096x1) S256x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .i32 = 32 ∨ (Rect.block (s := S4096x1) S256x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x32.size a ≤ S64x32.size a
  hwx0_8 : ∀ i : grid0.Coords, EltTy.bits .f32 = 32 ∨ (Rect.block (s := S64x32) S64x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x32.size a ≤ S4096x32.size a
  hwx0_10 : ∀ i : grid0.Coords, EltTy.bits .f32 = 32 ∨ (Rect.block (s := S4096x32) S256x32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x32.size a ≤ S4096x32.size a
  hwx0_11 : ∀ i : grid0.Coords, EltTy.bits .f32 = 32 ∨ (Rect.block (s := S4096x32) S256x32.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x32.size a ≤ S4096x32.size a
  hwx0_12 : ∀ i : grid0.Coords, EltTy.bits .f32 = 32 ∨ (Rect.block (s := S4096x32) S256x32.size (cc0_transform_12 i) (hinb0_12 i)).WholeWords (EltTy.packing .f32)

variable [Facts₀]

def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S500000_S1048576x1_S1048576_n_0_n_n_0_1_1 : GatherDims S500000 S1048576x1 S1048576 where
  offsetDims := []
  collapsedSliceDims := [0]
  operandBatchingDims := []
  startIndicesBatchingDims := []
  startIndexMap := [0]
  indexVectorDim := 1
  sliceSizes := ![1]
  wf := gather_S500000_S1048576x1_S1048576_n_0_n_n_0_1_1_wf
def dot_S256x32_S32x32_S256x32_1_0_0_1_n_n : DotDims S256x32 S32x32 S256x32 where
  lhsContracting := [1]
  rhsContracting := [0]
  lhsNonContracting := [0]
  rhsNonContracting := [1]
  lhsBatch := []
  rhsBatch := []
  wf := dot_S256x32_S32x32_S256x32_1_0_0_1_n_n_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf

abbrev win0_0 : Pipeline.Window sig grid0 :=
  Pipeline.Window.ofSpec (Memref.whole main_v24) S256x4x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S256x4x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S256x4x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S64x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v31_0) S256x32.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v31_1) S256x32.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v31_2) S256x32.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4096x4 : Shape := ⟨2, ![4096, 4]⟩
abbrev S4096 : Shape := ⟨1, ![4096]⟩
abbrev S100000x64 : Shape := ⟨2, ![100000, 64]⟩
abbrev S500000 : Shape := ⟨1, ![500000]⟩
abbrev S32x32 : Shape := ⟨2, ![32, 32]⟩
abbrev S32 : Shape := ⟨1, ![32]⟩
abbrev S64x32 : Shape := ⟨2, ![64, 32]⟩
abbrev S16384 : Shape := ⟨1, ![16384]⟩
abbrev S_ : Shape := ⟨0, ![]⟩
abbrev S16384x1 : Shape := ⟨2, ![16384, 1]⟩
abbrev S16384x64 : Shape := ⟨2, ![16384, 64]⟩
abbrev S4096x256 : Shape := ⟨2, ![4096, 256]⟩
abbrev S4096x4x64 : Shape := ⟨3, ![4096, 4, 64]⟩
abbrev S4096x1 : Shape := ⟨2, ![4096, 1]⟩
abbrev S4096x32 : Shape := ⟨2, ![4096, 32]⟩
abbrev S1048576 : Shape := ⟨1, ![1048576]⟩
abbrev S1048576x1 : Shape := ⟨2, ![1048576, 1]⟩
abbrev S1048576x32 : Shape := ⟨2, ![1048576, 32]⟩
abbrev S4096x4x64x32 : Shape := ⟨4, ![4096, 4, 64, 32]⟩
abbrev S4096x4x64x1 : Shape := ⟨4, ![4096, 4, 64, 1]⟩
abbrev S4096x4x32 : Shape := ⟨3, ![4096, 4, 32]⟩
abbrev S4096x4x1 : Shape := ⟨3, ![4096, 4, 1]⟩
abbrev S1x32 : Shape := ⟨2, ![1, 32]⟩
abbrev S4096x64 : Shape := ⟨2, ![4096, 64]⟩

abbrev nBuf : Space → Nat
  | .hbm => 106
  | .vmem => 0
  | .smem => 0
  | _ => 0

abbrev bufTy : (tb : Table) → Fin (tcTables nBuf tb) → BufTy
  | .hbm, ⟨0, _⟩ => ⟨S4096x4, .i32⟩
  | .hbm, ⟨1, _⟩ => ⟨S4096, .i32⟩
  | .hbm, ⟨2, _⟩ => ⟨S4096, .i32⟩
  | .hbm, ⟨3, _⟩ => ⟨S100000x64, .i32⟩
  | .hbm, ⟨4, _⟩ => ⟨S500000, .i32⟩
  | .hbm, ⟨5, _⟩ => ⟨S100000x64, .i32⟩
  | .hbm, ⟨6, _⟩ => ⟨S32x32, .f32⟩
  | .hbm, ⟨7, _⟩ => ⟨S32x32, .f32⟩
  | .hbm, ⟨8, _⟩ => ⟨S32, .f32⟩
  | .hbm, ⟨9, _⟩ => ⟨S64x32, .f32⟩
  | .hbm, ⟨10, _⟩ => ⟨S32, .f32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S16384x64, .i32⟩
  | .hbm, ⟨21, _⟩ => ⟨S4096x256, .i32⟩
  | .hbm, ⟨22, _⟩ => ⟨S_, .i32⟩
  | .hbm, ⟨23, _⟩ => ⟨S16384, .i32⟩
  | .hbm, ⟨24, _⟩ => ⟨S16384, .i1⟩
  | .hbm, ⟨25, _⟩ => ⟨S_, .i32⟩
  | .hbm, ⟨26, _⟩ => ⟨S16384, .i32⟩
  | .hbm, ⟨27, _⟩ => ⟨S16384, .i32⟩
  | .hbm, ⟨28, _⟩ => ⟨S16384, .i32⟩
  | .hbm, ⟨29, _⟩ => ⟨S16384x1, .i32⟩
  | .hbm, ⟨30, _⟩ => ⟨S16384x64, .i32⟩
  | .hbm, ⟨31, _⟩ => ⟨S4096x4x64, .i32⟩
  | .hbm, ⟨32, _⟩ => ⟨S4096x4x64, .f32⟩
  | .hbm, ⟨33, _⟩ => ⟨S4096x1, .i32⟩
  | .hbm, ⟨34, _⟩ => ⟨S4096x256, .i32⟩
  | .hbm, ⟨35, _⟩ => ⟨S4096x256, .i1⟩
  | .hbm, ⟨36, _⟩ => ⟨S4096x256, .f32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096x32, .f32⟩
  | .hbm, ⟨46, _⟩ => ⟨S1048576, .i32⟩
  | .hbm, ⟨47, _⟩ => ⟨S_, .i32⟩
  | .hbm, ⟨48, _⟩ => ⟨S1048576, .i32⟩
  | .hbm, ⟨49, _⟩ => ⟨S1048576, .i1⟩
  | .hbm, ⟨50, _⟩ => ⟨S_, .i32⟩
  | .hbm, ⟨51, _⟩ => ⟨S1048576, .i32⟩
  | .hbm, ⟨52, _⟩ => ⟨S1048576, .i32⟩
  | .hbm, ⟨53, _⟩ => ⟨S1048576, .i32⟩
  | .hbm, ⟨54, _⟩ => ⟨S1048576x1, .i32⟩
  | .hbm, ⟨55, _⟩ => ⟨S1048576, .i32⟩
  | .hbm, ⟨56, _⟩ => ⟨S_, .i32⟩
  | .hbm, ⟨57, _⟩ => ⟨S1048576, .i32⟩
  | .hbm, ⟨58, _⟩ => ⟨S1048576, .i1⟩
  | .hbm, ⟨59, _⟩ => ⟨S_, .i32⟩
  | .hbm, ⟨60, _⟩ => ⟨S1048576, .i32⟩
  | .hbm, ⟨61, _⟩ => ⟨S1048576, .i32⟩
  | .hbm, ⟨62, _⟩ => ⟨S1048576, .i32⟩
  | .hbm, ⟨63, _⟩ => ⟨S1048576x1, .i32⟩
  | .hbm, ⟨64, _⟩ => ⟨S1048576x32, .f32⟩
  | .hbm, ⟨65, _⟩ => ⟨S4096x4x64x32, .f32⟩
  | .hbm, ⟨66, _⟩ => ⟨S4096x4x64x1, .f32⟩
  | .hbm, ⟨67, _⟩ => ⟨S4096x4x64x32, .f32⟩
  | .hbm, ⟨68, _⟩ => ⟨S4096x4x64x32, .f32⟩
  | .hbm, ⟨69, _⟩ => ⟨S_, .f32⟩
  | .hbm, ⟨70, _⟩ => ⟨S4096x4x32, .f32⟩
  | .hbm, ⟨71, _⟩ => ⟨S_, .f32⟩
  | .hbm, ⟨72, _⟩ => ⟨S4096x4x1, .f32⟩
  | .hbm, ⟨73, _⟩ => ⟨S_, .f32⟩
  | .hbm, ⟨74, _⟩ => ⟨S4096x4x1, .f32⟩
  | .hbm, ⟨75, _⟩ => ⟨S4096x4x1, .f32⟩
  | .hbm, ⟨76, _⟩ => ⟨S4096x4x32, .f32⟩
  | .hbm, ⟨77, _⟩ => ⟨S4096x4x32, .f32⟩
  | .hbm, ⟨78, _⟩ => ⟨S_, .f32⟩
  | .hbm, ⟨79, _⟩ => ⟨S4096x32, .f32⟩
  | .hbm, ⟨80, _⟩ => ⟨S_, .f32⟩
  | .hbm, ⟨81, _⟩ => ⟨S4096x32, .f32⟩
  | .hbm, ⟨82, _⟩ => ⟨S4096x32, .f32⟩
  | .hbm, ⟨83, _⟩ => ⟨S4096x32, .f32⟩
  | .hbm, ⟨84, _⟩ => ⟨S4096x32, .f32⟩
  | .hbm, ⟨85, _⟩ => ⟨S1x32, .f32⟩
  | .hbm, ⟨86, _⟩ => ⟨S4096x32, .f32⟩
  | .hbm, ⟨87, _⟩ => ⟨S4096x32, .f32⟩
  | .hbm, ⟨88, _⟩ => ⟨S_, .f32⟩
  | .hbm, ⟨89, _⟩ => ⟨S4096x64, .f32⟩
  | .hbm, ⟨90, _⟩ => ⟨S_, .f32⟩
  | .hbm, ⟨91, _⟩ => ⟨S4096x64, .f32⟩
  | .hbm, ⟨92, _⟩ => ⟨S4096x64, .f32⟩
  | .hbm, ⟨93, _⟩ => ⟨S4096x32, .f32⟩
  | .hbm, ⟨94, _⟩ => ⟨S1x32, .f32⟩
  | .hbm, ⟨95, _⟩ => ⟨S4096x32, .f32⟩
  | .hbm, ⟨96, _⟩ => ⟨S4096x32, .f32⟩
  | .hbm, ⟨97, _⟩ => ⟨S4096x64, .f32⟩
  | .hbm, ⟨98, _⟩ => ⟨S4096x32, .f32⟩
  | .hbm, ⟨99, _⟩ => ⟨S4096x32, .f32⟩
  | .hbm, ⟨100, _⟩ => ⟨S_, .f32⟩
  | .hbm, ⟨101, _⟩ => ⟨S4096x32, .f32⟩
  | .hbm, ⟨102, _⟩ => ⟨S4096x32, .f32⟩
  | .hbm, ⟨103, _⟩ => ⟨S_, .f32⟩
  | .hbm, ⟨104, _⟩ => ⟨S4096x32, .f32⟩
  | .hbm, ⟨105, _⟩ => ⟨S4096x32, .f32⟩
  | _, _ => ⟨S4096x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_cst_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_15 : Ref sig .tc := ⟨.hbm, 100, rfl⟩
abbrev main_v72 : Ref sig .tc := ⟨.hbm, 101, rfl⟩
abbrev main_v73 : Ref sig .tc := ⟨.hbm, 102, rfl⟩
abbrev main_cst_16 : Ref sig .tc := ⟨.hbm, 103, rfl⟩
abbrev main_v74 : Ref sig .tc := ⟨.hbm, 104, rfl⟩
abbrev main_v75 : Ref sig .tc := ⟨.hbm, 105, rfl⟩

abbrev nD : Nat := 1
abbrev τ : Topo := Topo.v7x

variable {F : FTy → Type} [FloatOps F]

class Facts₀ : Prop where
  shapeCasts_S4096x4_S16384 : S4096x4.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  shapeCasts_S16384x64_S4096x256 : S16384x64.ShapeCasts S4096x256
  shapeCasts_S16384x64_S4096x4x64 : S16384x64.ShapeCasts S4096x4x64
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  bcast_S_S4096 : S_.BroadcastsInDim S4096 (![] : Fin 0 → Fin S4096.rank)
  shapeCasts_S4096x256_S1048576 : S4096x256.ShapeCasts S1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  shapeCasts_S1048576x32_S4096x4x64x32 : S1048576x32.ShapeCasts S4096x4x64x32
  shapeCasts_S4096x256_S4096x4x64x1 : S4096x256.ShapeCasts S4096x4x64x1
  bcast_S4096x4x64x1_S4096x4x64x32_0_1_2_3 : S4096x4x64x1.BroadcastsInDim S4096x4x64x32 (![0, 1, 2, 3] : Fin 4 → Fin S4096x4x64x32.rank)
  reducesTo_S4096x4x64x32_S4096x4x32_d2 : S4096x4x64x32.ReducesTo [2] S4096x4x32
  h_S_ : 0 < S_.numel
  reducesTo_S4096x4x64x1_S4096x4x1_d2 : S4096x4x64x1.ReducesTo [2] S4096x4x1
  bcast_S_S4096x4x1 : S_.BroadcastsInDim S4096x4x1 (![] : Fin 0 → Fin S4096x4x1.rank)
  bcast_S4096x4x1_S4096x4x32_0_1_2 : S4096x4x1.BroadcastsInDim S4096x4x32 (![0, 1, 2] : Fin 3 → Fin S4096x4x32.rank)
  reducesTo_S4096x4x32_S4096x32_d1 : S4096x4x32.ReducesTo [1] S4096x32
  bcast_S_S4096x32 : S_.BroadcastsInDim S4096x32 (![] : Fin 0 → Fin S4096x32.rank)
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  reducesTo_S4096x4x64_S4096x64_d1 : S4096x4x64.ReducesTo [1] S4096x64
  bcast_S_S4096x64 : S_.BroadcastsInDim S4096x64 (![] : Fin 0 → Fin S4096x64.rank)
  concatenates_S4096x32_S4096x32_S4096x64_d1 : Shape.Concatenates [S4096x32, S4096x32] S4096x64 1
  gather_S100000x64_S16384x1_S16384x64_1_0_n_n_0_1_164_wf : GatherDims.WF S100000x64 S16384x1 S16384x64 [1] [0] [] [0] [] 1 ![1, 64]
  gather_S32x32_S4096x1_S4096x32_1_0_n_n_0_1_132_wf : GatherDims.WF S32x32 S4096x1 S4096x32 [1] [0] [] [0] [] 1 ![1, 32]
  gather_S500000_S1048576x1_S1048576_n_0_n_n_0_1_1_wf : GatherDims.WF S500000 S1048576x1 S1048576 [] [0] [] [0] [] 1 ![1]
  gather_S32x32_S1048576x1_S1048576x32_1_0_n_n_0_1_132_wf : GatherDims.WF S32x32 S1048576x1 S1048576x32 [1] [0] [] [0] [] 1 ![1, 32]
  dot_S4096x32_S32x32_S4096x32_1_0_0_1_n_n_wf : DotDims.WF S4096x32 S32x32 S4096x32 [1] [0] [0] [1] [] []
  dot_S4096x64_S64x32_S4096x32_1_0_0_1_n_n_wf : DotDims.WF S4096x64 S64x32 S4096x32 [1] [0] [0] [1] [] []

variable [Facts₀]

def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S32x32_S4096x1_S4096x32_1_0_n_n_0_1_132 : GatherDims S32x32 S4096x1 S4096x32 where
  offsetDims := [1]
  collapsedSliceDims := [0]
  operandBatchingDims := []
  startIndicesBatchingDims := []
  startIndexMap := [0]
  indexVectorDim := 1
  sliceSizes := ![1, 32]
  wf := gather_S32x32_S4096x1_S4096x32_1_0_n_n_0_1_132_wf
def gather_S500000_S1048576x1_S1048576_n_0_n_n_0_1_1 : GatherDims S500000 S1048576x1 S1048576 where
  offsetDims := []
  collapsedSliceDims := [0]
  operandBatchingDims := []
  startIndicesBatchingDims := []
  startIndexMap := [0]
  indexVectorDim := 1
  sliceSizes := ![1]
  wf := gather_S500000_S1048576x1_S1048576_n_0_n_n_0_1_1_wf
def gather_S32x32_S1048576x1_S1048576x32_1_0_n_n_0_1_132 : GatherDims S32x32 S1048576x1 S1048576x32 where
  offsetDims := [1]
  collapsedSliceDims := [0]
  operandBatchingDims := []
  startIndicesBatchingDims := []
  startIndexMap := [0]
  indexVectorDim := 1
  sliceSizes := ![1, 32]
  wf := gather_S32x32_S1048576x1_S1048576x32_1_0_n_n_0_1_132_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf

class Facts : Prop extends Facts₀ where

variable [Facts]
-- ==== Proof.AggSpec.lean ====
/-
  The mathematics of the hyperedge-neighbourhood aggregation, free of any program.

  For every batch row b there are four hedge slots h, each with 64 sampled neighbour edges: an edge word, the type word
  of that edge, and the training edge of the row.  A sample counts (mask one) when its edge differs from the training
  edge.  Per slot, the masked sum of the type-feature rows of the samples' types is divided by the larger of the number of
  counted samples and one; the four slot averages are averaged, the feature row of the row's label is added, and a linear
  layer (w1, b1) gives the scores.  The node features are the mean over the four slots of the node embeddings through a
  second linear layer (w2, b2).

  The feature row of a type is written in two ways.  ONE-HOT: the sum over all 32 types t of [word = t] times row t (what a
  product with a one-hot matrix computes; an out-of-range word gives the zero row).  ROW: the row whose number is the word,
  negative words wrapped by 32 and the result clamped into 0..31 (what an indexed read computes).  On words in 0..31 the two
  agree, which is the one law this file proves.
-/
import Idealize.ShloMosaic.PureOps.Ideal.Laws
import Idealize.ShloMosaic.Lib.ValueIdx
import Idealize.ShloMosaic.Lib.StableHlo.Predicate

noncomputable section

namespace AggSpec

open Idealize.ShloMosaic Idealize.ShloMosaic.ValueIdx

/-- A one-bit word as an extended real: 0 or 1. -/
def bit (b : BitVec 1) : EReal := ((b.toNat : ℝ) : EReal)

/-- The f32 words of 1.0 and 4.0, read at the ideal values. -/
abbrev one : EReal := Ideal.ofBits .f32 0x3F800000#32
abbrev four : EReal := Ideal.ofBits .f32 0x40800000#32

/-- The data of n batch rows. -/
@[ext] structure Inp (n : Nat) where
  ne : Fin n → Fin 4 → Fin 64 → BitVec 32
  ty : Fin n → Fin 4 → Fin 64 → BitVec 32
  emb : Fin n → Fin 4 → Fin 64 → EReal
  th : Fin n → BitVec 32
  lbl : Fin n → BitVec 32
  tf : Fin 32 → Fin 32 → EReal
  w1 : Fin 32 → Fin 32 → EReal
  b1 : Fin 32 → EReal
  w2 : Fin 64 → Fin 32 → EReal
  b2 : Fin 32 → EReal

/-- A negative word wrapped by 32 (an indexed read's treatment of negative positions). -/
def wrap32 (x : BitVec 32) : BitVec 32 := Scalar.select (IntOp.cmpi .slt x 0#32) (IntOp.addi x 32#32) x

/-- The row an indexed read of a 32-row table takes for the word x: wrapped, read signed, clamped into 0..31. -/
def rowOf (x : BitVec 32) : Fin 32 := ⟨min (wrap32 x).toInt.toNat 31, by omega⟩

namespace Inp

variable {n : Nat} (I : Inp n)

/-- The mask of sample s of slot h of row b: one when its edge is not the row's training edge. -/
def msk (b : Fin n) (h : Fin 4) (s : Fin 64) : EReal := bit (IntOp.cmpi .ne (I.ne b h s) (I.th b))

/-- The divisor of a slot: the number of counted samples, at least one. -/
def den (b : Fin n) (h : Fin 4) : EReal := max (∑ s, I.msk b h s) one

/-- ONE-HOT form: how many counted samples of the slot have type t. -/
def cnt (b : Fin n) (h : Fin 4) (t : Fin 32) : EReal :=
  ∑ s, bit (IntOp.cmpi .eq (I.ty b h s) (BitVec.ofNat 32 t.val)) * I.msk b h s

/-- ONE-HOT form of a slot's average: the type counts through the feature table, over the divisor. -/
def avgK (b : Fin n) (h : Fin 4) (k : Fin 32) : EReal := Ideal.div (∑ t, I.cnt b h t * I.tf t k) (I.den b h)

/-- ONE-HOT form of the label's feature row. -/
def selfK (b : Fin n) (k : Fin 32) : EReal := ∑ t, bit (IntOp.cmpi .eq (I.lbl b) (BitVec.ofNat 32 t.val)) * I.tf t k

/-- ROW form of a slot's average. -/
def avgR (b : Fin n) (h : Fin 4) (k : Fin 32) : EReal :=
  Ideal.div (∑ s, I.tf (rowOf (I.ty b h s)) k * I.msk b h s) (I.den b h)

/-- ROW form of the label's feature row. -/
def selfR (b : Fin n) (k : Fin 32) : EReal := I.tf (rowOf (I.lbl b)) k

/-- The scores from the slot averages and the label rows: mean over the slots, plus the label row, through (w1, b1). -/
def scoresOf (avg : Fin n → Fin 4 → Fin 32 → EReal) (self : Fin n → Fin 32 → EReal) (b : Fin n) (j : Fin 32) : EReal :=
  (∑ k, (Ideal.div (∑ h, avg b h k) four + self b k) * I.w1 k j) + I.b1 j

def scoresK : Fin n → Fin 32 → EReal := I.scoresOf I.avgK I.selfK
def scoresR : Fin n → Fin 32 → EReal := I.scoresOf I.avgR I.selfR

/-- The node features: the mean over the slots of the embeddings, through (w2, b2). -/
def nfeat (b : Fin n) (j : Fin 32) : EReal := (∑ e, Ideal.div (∑ h, I.emb b h e) four * I.w2 e j) + I.b2 j

/-- Rows 256·t … 256·t + 255 of the data of 4096 rows. -/
def block (I : Inp 4096) (t : Fin 16) : Inp 256 where
  ne r := I.ne ⟨256 * t.val + r.val, by omega⟩
  ty r := I.ty ⟨256 * t.val + r.val, by omega⟩
  emb r := I.emb ⟨256 * t.val + r.val, by omega⟩
  th r := I.th ⟨256 * t.val + r.val, by omega⟩
  lbl r := I.lbl ⟨256 * t.val + r.val, by omega⟩
  tf := I.tf
  w1 := I.w1
  b1 := I.b1
  w2 := I.w2
  b2 := I.b2

/-- Each row's scores and node features depend on that row's data only. -/
theorem scoresK_block (I : Inp 4096) (t : Fin 16) (r : Fin 256) (j : Fin 32) :
    (I.block t).scoresK r j = I.scoresK ⟨256 * t.val + r.val, by omega⟩ j := rfl
theorem nfeat_block (I : Inp 4096) (t : Fin 16) (r : Fin 256) (j : Fin 32) :
    (I.block t).nfeat r j = I.nfeat ⟨256 * t.val + r.val, by omega⟩ j := rfl

end Inp

/-! ## The data from arrays -/

/-- From the three [n, 4, 64] arrays, the two [n, 1] columns, the tables and the two [1, 32] bias rows. -/
def Inp.of3 {n : Nat} (ne3 ty3 : (⟨3, ![n, 4, 64]⟩ : Shape).Idx → BitVec 32) (emb3 : (⟨3, ![n, 4, 64]⟩ : Shape).Idx → EReal)
    (th2 lbl2 : (⟨2, ![n, 1]⟩ : Shape).Idx → BitVec 32) (tf w1 : (⟨2, ![32, 32]⟩ : Shape).Idx → EReal)
    (b1r : (⟨2, ![1, 32]⟩ : Shape).Idx → EReal) (w2 : (⟨2, ![64, 32]⟩ : Shape).Idx → EReal)
    (b2r : (⟨2, ![1, 32]⟩ : Shape).Idx → EReal) : Inp n where
  ne b h s := ne3 (ix3 b h s)
  ty b h s := ty3 (ix3 b h s)
  emb b h e := emb3 (ix3 b h e)
  th b := th2 (ix2 b (0 : Fin 1))
  lbl b := lbl2 (ix2 b (0 : Fin 1))
  tf t k := tf (ix2 t k)
  w1 k j := w1 (ix2 k j)
  b1 j := b1r (ix2 (0 : Fin 1) j)
  w2 e j := w2 (ix2 e j)
  b2 j := b2r (ix2 (0 : Fin 1) j)

/-- From the flat arrays: edges and embedding words as [16384, 64] (row 4·b + h), types as [1048576]
    (position 256·b + 64·h + s), the two [4096] vectors, the tables and the two [32] biases. -/
def Inp.ofFlat (nef : (⟨2, ![16384, 64]⟩ : Shape).Idx → BitVec 32) (tyf : (⟨1, ![1048576]⟩ : Shape).Idx → BitVec 32)
    (emf : (⟨2, ![16384, 64]⟩ : Shape).Idx → BitVec 32) (th lbl : (⟨1, ![4096]⟩ : Shape).Idx → BitVec 32)
    (tf w1 : (⟨2, ![32, 32]⟩ : Shape).Idx → EReal) (b1 : (⟨1, ![32]⟩ : Shape).Idx → EReal)
    (w2 : (⟨2, ![64, 32]⟩ : Shape).Idx → EReal) (b2 : (⟨1, ![32]⟩ : Shape).Idx → EReal) : Inp 4096 where
  ne b h s := nef (ix2 ⟨4 * b.val + h.val, by omega⟩ s)
  ty b h s := tyf (ix1 ⟨256 * b.val + 64 * h.val + s.val, by omega⟩)
  emb b h e := (((emf (ix2 ⟨4 * b.val + h.val, by omega⟩ e)).toInt : ℝ) : EReal)
  th b := th (ix1 b)
  lbl b := lbl (ix1 b)
  tf t k := tf (ix2 t k)
  w1 k j := w1 (ix2 k j)
  b1 j := b1 (ix1 j)
  w2 e j := w2 (ix2 e j)
  b2 j := b2 (ix1 j)

/-! ## The gathered arrays from the eleven inputs

The neighbour nodes [4096, 4] are flattened to 16384 positions; a negative node number is wrapped by the table's length and
the table's row at that number is read (clamped into the table, as an indexed read does).  The edge words so read, flattened
to 1048576 positions and treated the same way against the 500000 edge types, give the type words. -/

/-- A negative word wrapped by N. -/
def wrapBy (N x : BitVec 32) : BitVec 32 := Scalar.select (IntOp.cmpi .slt x 0#32) (IntOp.addi x N) x

/-- Reading whole 64-word rows of a 100000-row table at 16384 positions. -/
def rowsDims : GatherDims (⟨2, ![100000, 64]⟩ : Shape) (⟨2, ![16384, 1]⟩ : Shape) (⟨2, ![16384, 64]⟩ : Shape) where
  offsetDims := [1]
  collapsedSliceDims := [0]
  operandBatchingDims := []
  startIndicesBatchingDims := []
  startIndexMap := [0]
  indexVectorDim := 1
  sliceSizes := ![1, 64]

/-- Reading single words of a 500000-entry table at 1048576 positions. -/
def typeDims : GatherDims (⟨1, ![500000]⟩ : Shape) (⟨2, ![1048576, 1]⟩ : Shape) (⟨1, ![1048576]⟩ : Shape) where
  offsetDims := []
  collapsedSliceDims := [0]
  operandBatchingDims := []
  startIndicesBatchingDims := []
  startIndexMap := [0]
  indexVectorDim := 1
  sliceSizes := ![1]

/-- The rows of a 100000-row table at the flattened, wrapped neighbour nodes: [16384, 64]. -/
def rowsOf (tbl : (⟨2, ![100000, 64]⟩ : Shape).Idx → BitVec 32) (nb : (⟨2, ![4096, 4]⟩ : Shape).Idx → BitVec 32) :
    (⟨2, ![16384, 64]⟩ : Shape).Idx → BitVec 32 :=
  Host.gather rowsDims tbl
    (broadcastInDim (⟨2, ![16384, 1]⟩ : Shape) ![0] (by decide)
      (fun i : (⟨1, ![16384]⟩ : Shape).Idx => wrapBy 100000#32 (shapeCast (⟨1, ![16384]⟩ : Shape) nb (by decide) i)))

/-- The type words of the flattened, wrapped edge words: [1048576]. -/
def typesOf (ht : (⟨1, ![500000]⟩ : Shape).Idx → BitVec 32) (nef : (⟨2, ![16384, 64]⟩ : Shape).Idx → BitVec 32) :
    (⟨1, ![1048576]⟩ : Shape).Idx → BitVec 32 :=
  Host.gather typeDims ht
    (broadcastInDim (⟨2, ![1048576, 1]⟩ : Shape) ![0] (by decide)
      (fun i : (⟨1, ![1048576]⟩ : Shape).Idx => wrapBy 500000#32 (shapeCast (⟨1, ![1048576]⟩ : Shape) nef (by decide) i)))

/-- The data of all 4096 rows from the eleven inputs, in the programs' argument order: neighbours, training edges, labels,
    the node-to-edges table, the edge types, the node embeddings, the type features, w1, b1, w2, b2. -/
def fullInp (a0 : (⟨2, ![4096, 4]⟩ : Shape).Idx → BitVec 32) (a1 a2 : (⟨1, ![4096]⟩ : Shape).Idx → BitVec 32)
    (a3 : (⟨2, ![100000, 64]⟩ : Shape).Idx → BitVec 32) (a4 : (⟨1, ![500000]⟩ : Shape).Idx → BitVec 32)
    (a5 : (⟨2, ![100000, 64]⟩ : Shape).Idx → BitVec 32) (a6 a7 : (⟨2, ![32, 32]⟩ : Shape).Idx → EReal)
    (a8 : (⟨1, ![32]⟩ : Shape).Idx → EReal) (a9 : (⟨2, ![64, 32]⟩ : Shape).Idx → EReal)
    (a10 : (⟨1, ![32]⟩ : Shape).Idx → EReal) : Inp 4096 :=
  Inp.ofFlat (rowsOf a3 a0) (typesOf a4 (rowsOf a3 a0)) (rowsOf a5 a0) a1 a2 a6 a7 a8 a9 a10

/-- Every type word of the data is an entry of the edge-type table. -/
theorem fullInp_ty_mem (a0 a1 a2 a3 a4 a5 a6 a7 a8 a9 a10) (b : Fin 4096) (h : Fin 4) (s : Fin 64) :
    ∃ i, (fullInp a0 a1 a2 a3 a4 a5 a6 a7 a8 a9 a10).ty b h s = a4 i := ⟨_, rfl⟩

/-! ## The three results as arrays -/

/-- A [4096, 32] array from its entries. -/
def arr (f : Fin 4096 → Fin 32 → EReal) : (⟨2, ![4096, 32]⟩ : Shape).Idx → EReal := fun i => f (i 0) (i 1)

/-- The logistic function entry by entry. -/
def sigArr (f : Fin 4096 → Fin 32 → EReal) : (⟨2, ![4096, 32]⟩ : Shape).Idx → EReal := fun i => Ideal.logistic (f (i 0) (i 1))

/-- Scores and node features side by side, [4096, 64]. -/
def catArr (hc : Shape.Concatenates [(⟨2, ![4096, 32]⟩ : Shape), (⟨2, ![4096, 32]⟩ : Shape)] (⟨2, ![4096, 64]⟩ : Shape) 1)
    (f g : Fin 4096 → Fin 32 → EReal) : (⟨2, ![4096, 64]⟩ : Shape).Idx → EReal :=
  concatenate (⟨2, ![4096, 64]⟩ : Shape) 1 [⟨(⟨2, ![4096, 32]⟩ : Shape), arr f⟩, ⟨(⟨2, ![4096, 32]⟩ : Shape), arr g⟩] hc

end AggSpec

end
-- ==== Proof.AggLaw.lean ====
/-
  The one law of the aggregation: on type and label words in 0 … 31 the ONE-HOT form and the ROW form of a feature row agree,
  and so do the slot averages, the label rows and the scores built from them.
-/
import proofs.«430323_j53145925320941_1_alg».proof.Proof.AggSpec
import Mathlib.Data.EReal.Operations
import Mathlib.Data.EReal.Inv

noncomputable section

namespace AggSpec

open Idealize.ShloMosaic Idealize.ShloMosaic.ValueIdx

/-! ## Bits, small words, and the one-hot sum -/

namespace Law

/-- The bit 0 is the extended real 0, the bit 1 the extended real 1, and every bit is non-negative. -/
theorem bit_zero : bit 0#1 = 0 := by simp [bit]
theorem bit_one : bit 1#1 = 1 := by simp [bit]
theorem bit_nonneg (b : BitVec 1) : 0 ≤ bit b := by
  rcases BitVec.eq_zero_or_eq_one b with h | h
  · rw [h, bit_zero]
  · rw [h, bit_one]; exact zero_le_one

/-- A word below 32 is non-negative as a signed word, so wrapping leaves it alone. -/
theorem wrap32_of_lt {x : BitVec 32} (h : x.toNat < 32) : wrap32 x = x := by
  have hti : x.toInt = x.toNat := StableHlo.Predicate.toInt_eq_toNat_of_lt (by omega)
  have hc : IntOp.cmpi .slt x 0#32 = 0#1 := by
    have h0 : (0#32 : BitVec 32).toInt = 0 := by decide
    simp only [IntOp.cmpi, BitVec.slt, hti, h0]
    have hn : ¬ ((x.toNat : ℤ) < 0) := by omega
    simp only [hn, decide_false, BitVec.ofBool_false]
    rfl
  unfold wrap32
  rw [hc, select_zero]

/-- The row of a word below 32 is the word itself. -/
theorem rowOf_of_lt {x : BitVec 32} (h : x.toNat < 32) : rowOf x = ⟨x.toNat, h⟩ := by
  apply Fin.ext
  show min (wrap32 x).toInt.toNat 31 = x.toNat
  rw [wrap32_of_lt h, StableHlo.Predicate.toInt_eq_toNat_of_lt (by omega)]
  simp only [Int.toNat_natCast]
  omega

/-- A word below 32 equals the word of the type t exactly when t is its row. -/
theorem eq_ofNat_iff {x : BitVec 32} (h : x.toNat < 32) (t : Fin 32) : x = BitVec.ofNat 32 t.val ↔ t = rowOf x := by
  rw [rowOf_of_lt h]
  constructor
  · intro hx
    apply Fin.ext
    show t.val = x.toNat
    rw [hx, BitVec.toNat_ofNat]
    have := t.isLt
    omega
  · intro ht
    rw [ht]
    show x = BitVec.ofNat 32 x.toNat
    rw [BitVec.ofNat_toNat, BitVec.setWidth_eq]

/-- The sum over all 32 types t of [x = t] · f t is f at the row of x, for a word x below 32: one term has the bit 1,
    every other the bit 0. -/
theorem sum_onehot {x : BitVec 32} (h : x.toNat < 32) (f : Fin 32 → EReal) :
    ∑ t : Fin 32, bit (IntOp.cmpi .eq x (BitVec.ofNat 32 t.val)) * f t = f (rowOf x) := by
  rw [Finset.sum_eq_single (rowOf x)]
  · have hc : IntOp.cmpi .eq x (BitVec.ofNat 32 (rowOf x).val) = 1#1 :=
      StableHlo.Predicate.cmpi_eq_iff.mpr ((eq_ofNat_iff h _).mpr rfl)
    rw [hc, bit_one, one_mul]
  · intro t _ ht
    have hc : IntOp.cmpi .eq x (BitVec.ofNat 32 t.val) = 0#1 :=
      eq_zero_of_ne_one (fun h1 => ht ((eq_ofNat_iff h t).mp (StableHlo.Predicate.cmpi_eq_iff.mp h1)))
    rw [hc, bit_zero, zero_mul]
  · intro hn
    exact absurd (Finset.mem_univ _) hn

/-- A finite sum of non-negative extended reals times c is the sum of the products (the extended reals distribute
    over sums of non-negative terms only). -/
theorem sum_mul_of_nonneg {ι : Type} (S : Finset ι) (a : ι → EReal) (ha : ∀ i, 0 ≤ a i) (c : EReal) :
    (∑ i ∈ S, a i) * c = ∑ i ∈ S, a i * c := by
  classical
  induction S using Finset.induction_on with
  | empty => simp
  | insert i S hi ih =>
    rw [Finset.sum_insert hi, Finset.sum_insert hi,
      EReal.right_distrib_of_nonneg (ha i) (Finset.sum_nonneg (fun j _ => ha j)), ih]

end Law

namespace Inp

variable {n : Nat} (I : Inp n)

/-- With every type word below 32, the counts through the feature table are the masked sum of the samples' feature rows. -/
theorem avgK_eq_avgR (hty : ∀ b h s, (I.ty b h s).toNat < 32) : I.avgK = I.avgR := by
  funext b h k
  unfold avgK avgR
  congr 1
  unfold cnt
  -- distribute the feature entry into the count (its terms are non-negative), swap the two sums, and collapse the sum
  -- over the types to its one term
  calc ∑ t, (∑ s, bit (IntOp.cmpi .eq (I.ty b h s) (BitVec.ofNat 32 t.val)) * I.msk b h s) * I.tf t k
      = ∑ t, ∑ s, bit (IntOp.cmpi .eq (I.ty b h s) (BitVec.ofNat 32 t.val)) * I.msk b h s * I.tf t k := by
        refine Finset.sum_congr rfl (fun t _ => ?_)
        exact Law.sum_mul_of_nonneg _ _ (fun s => EReal.mul_nonneg (Law.bit_nonneg _) (Law.bit_nonneg _)) _
    _ = ∑ s, ∑ t, bit (IntOp.cmpi .eq (I.ty b h s) (BitVec.ofNat 32 t.val)) * (I.msk b h s * I.tf t k) := by
        rw [Finset.sum_comm]
        refine Finset.sum_congr rfl (fun s _ => Finset.sum_congr rfl (fun t _ => ?_))
        rw [mul_assoc]
    _ = ∑ s, I.tf (rowOf (I.ty b h s)) k * I.msk b h s := by
        refine Finset.sum_congr rfl (fun s _ => ?_)
        rw [Law.sum_onehot (hty b h s) (fun t => I.msk b h s * I.tf t k), mul_comm]

/-- With every label word below 32, the one-hot sum picks the label's feature row. -/
theorem selfK_eq_selfR (hl : ∀ b, (I.lbl b).toNat < 32) : I.selfK = I.selfR := by
  funext b k
  exact Law.sum_onehot (hl b) (fun t => I.tf t k)

theorem scoresK_eq_scoresR (hty : ∀ b h s, (I.ty b h s).toNat < 32) (hl : ∀ b, (I.lbl b).toNat < 32) :
    I.scoresK = I.scoresR := by
  unfold scoresK scoresR
  rw [I.avgK_eq_avgR hty, I.selfK_eq_selfR hl]

end Inp

end AggSpec

end
-- ==== Proof.PreRanges.lean ====
/-
  What the precondition says of the two integer inputs that number rows of the 32-row feature table: every label word and
  every edge-type word lies in 0 … 31.  The precondition is a conjunction of "all" tests; the last four are
  labels ≥ 0, labels < 32, types ≥ 0, types < 32, compared as signed words.  A signed word between 0 and 31 is the natural
  number it encodes, so its unsigned reading is below 32 as well.
-/
import proofs.«430323_j53145925320941_1_alg».proof.Pre_finite_inputs
import Idealize.ShloMosaic.Lib.Affine
import Idealize.ShloMosaic.Lib.ReduceAll
import Idealize.ShloMosaic.Lib.ValueIdx

noncomputable section

namespace Cert.Pre_finite_inputs.Ranges

open Cert.Pre_finite_inputs Idealize.ShloMosaic Idealize.ShloMosaic.ValueIdx

instance : Subsingleton S_.Idx := ⟨fun a b => funext fun d => d.elim0⟩

/-- A word that is at least 0 and below 32 as a signed integer is below 32 as a natural number. -/
theorem toNat_lt_of_signed {x : BitVec 32} (h0 : (0#32).toInt ≤ x.toInt) (h1 : x.toInt < (32#32).toInt) : x.toNat < 32 := by
  have e0 : (0#32 : BitVec 32).toInt = 0 := by decide
  have e1 : (32#32 : BitVec 32).toInt = 32 := by decide
  rw [e0] at h0; rw [e1] at h1
  rw [BitVec.toInt_eq_toNat_cond] at h0 h1
  have := x.isLt
  split at h0 <;> omega

variable [Facts]

/-- Under the precondition every label word and every edge-type word is below 32. -/
theorem ranges {F : FTy → Type} [FloatOps F] (a0 : IVec S4096x4 32) (a1 a2 : IVec S4096 32) (a3 : IVec S100000x64 32)
    (a4 : IVec S500000 32) (a5 : IVec S100000x64 32) (a6 a7 : FVec F S32x32 .f32) (a8 : FVec F S32 .f32)
    (a9 : FVec F S64x32 .f32) (a10 : FVec F S32 .f32)
    (h : fn (F := F) a0 a1 a2 a3 a4 a5 a6 a7 a8 a9 a10 = fun _ => 1#1) :
    (∀ i, (a2 i).toNat < 32) ∧ (∀ i, (a4 i).toNat < 32) := by
  have h' := congrFun h ix0
  dsimp only [fn, fn_part1, fn_part2] at h'
  obtain ⟨h', hT1⟩ := IntOp.andi_eq_one.mp h'
  obtain ⟨h', hT0⟩ := IntOp.andi_eq_one.mp h'
  obtain ⟨h', hL1⟩ := IntOp.andi_eq_one.mp h'
  obtain ⟨-, hL0⟩ := IntOp.andi_eq_one.mp h'
  refine ⟨fun i => ?_, fun i => ?_⟩
  · exact toNat_lt_of_signed (IntOp.cmpi_sge.mp (Host.reduce_andi_all _ _ _ _ _ hL0 i))
      (IntOp.cmpi_slt.mp (Host.reduce_andi_all _ _ _ _ _ hL1 i))
  · exact toNat_lt_of_signed (IntOp.cmpi_sge.mp (Host.reduce_andi_all _ _ _ _ _ hT0 i))
      (IntOp.cmpi_slt.mp (Host.reduce_andi_all _ _ _ _ _ hT1 i))

end Cert.Pre_finite_inputs.Ranges

end
-- ==== Proof.KernelData.lean ====
/-
  The data of the 4096 rows as the idealized kernel's region finds it: the three [4096, 4, 64] arrays, the two [4096, 1]
  columns, the tables and the two [1, 32] bias rows that the host lines before the region leave.
-/
import proofs.«430323_j53145925320941_1_alg».proof.Proof.Gen.KernelIdeal.Frame
import proofs.«430323_j53145925320941_1_alg».proof.Proof.AggSpec

noncomputable section

namespace Cert.KernelIdeal.KData

open Cert.KernelIdeal Cert.KernelIdeal.Gen Idealize.ShloMosaic Idealize.SL.Sem

variable (m : (ℓ : Loc nD τ sig) → Buf (Elt Ideal) ℓ)

/-- The rows' data read off the arrays the region's ten input windows stage. -/
def kInp3 (c : Dev nD) : AggSpec.Inp 4096 :=
  AggSpec.Inp.of3 (V m c main_v24) (V m c main_v26) (V m c main_v25) (V m c main_v27) (V m c main_v28)
    (V m c main_arg6) (V m c main_arg7) (V m c main_v29) (V m c main_arg9) (V m c main_v30)

end Cert.KernelIdeal.KData

end
-- ==== Proof.LibPlainMatmul.lean ====
/-
  General lemmas, free of any program.

  * A `tpu.matmul` of an m×k block by a k×n block into the zero accumulator, read at the entry (a, b) at the ideal
    values, is the plain sum over the contracted coordinate c of A(a, c) · B(c, b): no accumulator term, no chunk order.
    Stated for the record `DotDims.plain m k n` and for any record equal to it (a printed record of the same six
    lists differs from it only in its well-formedness proof).
  * The two coordinates of a rank-2 index built from a pair.
  * The coercion of the reals into the extended reals commutes with finite sums and with the maximum of two reals.
-/
import Idealize.ShloMosaic.PureOps.Ideal.Laws
import Idealize.ShloMosaic.Lib.ValueIdx

noncomputable section

namespace PlainMatmul

open Idealize.ShloMosaic Idealize.ShloMosaic.ValueIdx

/-- The entry (a, b) of the product of an m×k by a k×n matrix accumulated into zero is `∑ c, A(a, c) · B(c, b)`. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  -- the contraction index built from c has c on its one axis
  have hc := contrEquiv1_symm_val (DotDims.plain m k n) k rfl rfl c
  -- the left operand is read at (a, c): axis 0 is the output's row, axis 1 the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc
  -- the right operand is read at (c, b)
  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

/-- The same for any record that IS the plain one. -/
theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first coordinate of the index built from (a, b) is a. -/
theorem ix2_at0 {n0 n1 : Nat} (a : Fin n0) (b : Fin n1) : (ix2 a b 0 : Fin n0) = a := rfl
/-- The second coordinate of the index built from (a, b) is b. -/
theorem ix2_at1 {n0 n1 : Nat} (a : Fin n0) (b : Fin n1) : (ix2 a b 1 : Fin n1) = b := rfl

/-- The coercion is monotone, so it commutes with the maximum. -/
theorem coe_max (a b : ℝ) : ((max a b : ℝ) : EReal) = max (a : EReal) (b : EReal) :=
  EReal.coe_strictMono.monotone.map_max

end PlainMatmul

end
-- ==== Proof.SlotAverage.lean ====
/-
  One hedge slot of the aggregation on a block of 256 rows, as an operation on the block's arrays, and its value entry by
  entry: from the [256, 64] words of the sampled edges, of their types and of the training edge, the masked type counts
  through the truncated feature table, divided by the number of counted samples (at least one).  Before it, the few
  layout readings it needs (a vector seen as a column, a column repeated along the rows, a trailing unit axis) and the
  reading of a one-bit word as the real 0 or 1.
-/
import proofs.«430323_j53145925320941_1_alg».proof.Proof.Gen.KernelIdeal.Skeleton
import proofs.«430323_j53145925320941_1_alg».proof.Proof.AggSpec
import proofs.«430323_j53145925320941_1_alg».proof.Proof.LibPlainMatmul
import Idealize.ShloMosaic.Lib.ValueLayout

noncomputable section

namespace Cert.KernelIdeal.SlotAverage

open Cert.KernelIdeal Cert.KernelIdeal.Gen Idealize.ShloMosaic Idealize.ShloMosaic.ValueIdx

/-! ## Words and layouts read at an entry -/

/-- A one-bit word, widened by zeros and then read as a signed integer, is the real 0 or 1 of the bit. -/
theorem sitofp_extui_bit (b : BitVec 1) : FloatOps.sitofp (F := Ideal) .f32 (b.setWidth 32) = AggSpec.bit b := by
  have h : (b.setWidth 32).toInt = (b.toNat : ℤ) := by
    rcases BitVec.eq_zero_or_eq_one b with h | h <;> subst h <;> decide
  show (((b.setWidth 32).toInt : ℝ) : EReal) = ((b.toNat : ℝ) : EReal)
  rw [h, Int.cast_natCast]

section Layout
variable {α : Type}

/-- A vector of length a seen as a column [a, 1] reads, at (i, u), its entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix [a, b] seen as [a, b, 1] reads, at (i, j, u), its entry (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An array [a, 1, b] seen as the matrix [a, b] reads, at (i, j), its entry (i, 0, j). -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A column [a, 1] repeated along the rows to [a, b] reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An array [a, b, 1] repeated along the last axis to [a, b, c] reads, at (p, q, t), the entry (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (t : Fin c) :
    broadcastTo ⟨3, ![a, b, c]⟩ v h (ix3 p q t) = v (ix3 p q (0 : Fin 1)) := by
  refine broadcastTo_apply v h (ix3 p q t) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

end Layout

/-! ## The two sums over the 64 samples -/

/-- The sum of a [256, 64] block over its samples, at row r. -/
theorem sampleSum_apply (m : FVec Ideal S256x64 .f32) (r : Fin 256) :
    multiReduction .add [1] S256 m 0x00000000#32 reduces_S256x64_S256 (.inl rfl) rfl (ix1 r)
      = ∑ s : Fin 64, m (ix2 r s) := by
  refine (Ideal.multiReduction_add_single m 0x00000000#32 reduces_S256x64_S256 (.inl rfl) rfl (ix1 r)).trans ?_
  refine Finset.sum_congr rfl fun s _ => congrArg m ?_
  funext a
  match a with
  | ⟨0, _⟩ => exact Fin.ext rfl
  | ⟨1, _⟩ => exact Fin.ext rfl

/-- The sum of a [256, 64, 32] block over its samples, at row r and type t. -/
theorem sampleSum3_apply (v : FVec Ideal S256x64x32 .f32) (r : Fin 256) (t : Fin 32) :
    multiReduction .add [1] S256x32 v 0x00000000#32 reduces_S256x64x32_S256x32 (.inl rfl) rfl (ix2 r t)
      = ∑ s : Fin 64, v (ix3 r s t) := by
  refine (Ideal.multiReduction_add_single v 0x00000000#32 reduces_S256x64x32_S256x32 (.inl rfl) rfl (ix2 r t)).trans ?_
  refine Finset.sum_congr rfl fun s _ => congrArg v ?_
  funext a
  match a with
  | ⟨0, _⟩ => exact Fin.ext rfl
  | ⟨1, _⟩ => exact Fin.ext rfl
  | ⟨2, _⟩ => exact Fin.ext rfl

/-! ## One slot: mask, divisor, masked type counts, average -/

/-- The mask of a slot: the bit "the sample's edge is not the training edge", as a real. -/
def maskOf (ne thb : IVec S256x64 32) : FVec Ideal S256x64 .f32 :=
  sitofp .f32 (extui 32 (cmpi .ne ne thb) natLt_1_32)

/-- The divisor column of a slot: the number of counted samples, at least one. -/
def denOf (m : FVec Ideal S256x64 .f32) : FVec Ideal S256x1 .f32 :=
  maximumf
    (shapeCast S256x1 (multiReduction .add [1] S256 m 0x00000000#32 reduces_S256x64_S256 (.inl rfl) rfl) shapeCasts_S256_S256x1)
    (broadcast S256x1 (Scalar.ofBits .f32 0x3F800000#32))

/-- The masked type counts of a slot: per row and type, the counted samples of that type (io holds the type numbers). -/
def cntOf (io : IVec S256x64x32 32) (ty : IVec S256x64 32) (m : FVec Ideal S256x64 .f32) : FVec Ideal S256x32 .bf16 :=
  truncf .bf16
    (multiReduction .add [1] S256x32
      (mulf
        (sitofp .f32 (extui 32 (cmpi .eq
          (broadcastTo S256x64x32 (shapeCast S256x64x1 ty shapeCasts_S256x64_S256x64x1) broadcasts_S256x64x1_S256x64x32) io) natLt_1_32))
        (broadcastTo S256x64x32 (shapeCast S256x64x1 m shapeCasts_S256x64_S256x64x1) broadcasts_S256x64x1_S256x64x32))
      0x00000000#32 reduces_S256x64x32_S256x32 (.inl rfl) rfl)
    bitsLt_bf16_f32

/-- The average of a slot: the counts through the feature table, over the divisor. -/
def slotOf (tfb : FVec Ideal S32x32 .bf16) (io : IVec S256x64x32 32) (ne ty thb : IVec S256x64 32) : FVec Ideal S256x32 .f32 :=
  divf
    (matmul dot_S256x32_S32x32_S256x32_1_0_0_1_n_n none (cntOf io ty (maskOf ne thb)) tfb (constant S256x32 .f32 0x00000000#32))
    (broadcastTo S256x32 (denOf (maskOf ne thb)) broadcasts_S256x1_S256x32)

theorem maskOf_apply (ne thb : IVec S256x64 32) (i : S256x64.Idx) :
    maskOf ne thb i = AggSpec.bit (IntOp.cmpi .ne (ne i) (thb i)) :=
  sitofp_extui_bit _

theorem denOf_apply (m : FVec Ideal S256x64 .f32) (r : Fin 256) :
    denOf m (ix2 r (0 : Fin 1)) = max (∑ s : Fin 64, m (ix2 r s)) AggSpec.one :=
  congrArg (max · AggSpec.one) ((shapeCast_a_a1_apply _ _ r 0).trans (sampleSum_apply m r))

theorem cntOf_apply (ty : IVec S256x64 32) (m : FVec Ideal S256x64 .f32) (r : Fin 256) (t : Fin 32) :
    cntOf (iota .tc S256x64x32 32 [2] iota_S256x64x32_d2_w32) ty m (ix2 r t)
      = ∑ s : Fin 64, AggSpec.bit (IntOp.cmpi .eq (ty (ix2 r s)) (BitVec.ofNat 32 t.val)) * m (ix2 r s) := by
  refine (sampleSum3_apply _ r t).trans (Finset.sum_congr rfl fun s _ => ?_)
  refine congrArg₂ (· * ·) ?_ ?_
  · refine (sitofp_extui_bit _).trans (congrArg AggSpec.bit (congrArg₂ (IntOp.cmpi .eq) ?_ ?_))
    · exact (broadcastTo_ab1_abc_apply _ _ r s t).trans (shapeCast_ab_ab1_apply _ _ r s 0)
    · exact iota_single_apply _ _ _ _ _ _
  · exact (broadcastTo_ab1_abc_apply _ _ r s t).trans (shapeCast_ab_ab1_apply _ _ r s 0)

/-- A slot's average at row r and feature k, from the words its three blocks hold on row r. -/
theorem slotOf_apply (tfb : FVec Ideal S32x32 .bf16) (ne ty thb : IVec S256x64 32) (r : Fin 256) (k : Fin 32) :
    slotOf tfb (iota .tc S256x64x32 32 [2] iota_S256x64x32_d2_w32) ne ty thb (ix2 r k)
      = Ideal.div
          (∑ t : Fin 32, (∑ s : Fin 64, AggSpec.bit (IntOp.cmpi .eq (ty (ix2 r s)) (BitVec.ofNat 32 t.val))
              * AggSpec.bit (IntOp.cmpi .ne (ne (ix2 r s)) (thb (ix2 r s)))) * tfb (ix2 t k))
          (max (∑ s : Fin 64, AggSpec.bit (IntOp.cmpi .ne (ne (ix2 r s)) (thb (ix2 r s)))) AggSpec.one) := by
  refine congrArg₂ Ideal.div ?_ ?_
  · refine (PlainMatmul.matmul_zero_apply_of_eq _ rfl none _ tfb r k).trans
      (Finset.sum_congr rfl fun t _ => congrArg (· * tfb (ix2 t k)) ?_)
    exact (cntOf_apply ty _ r t).trans (Finset.sum_congr rfl fun s _ => congrArg (_ * ·) (maskOf_apply ne thb _))
  · refine (broadcastTo_a1_ab_apply _ _ r k).trans ((denOf_apply _ r).trans ?_)
    exact congrArg (max · AggSpec.one) (Finset.sum_congr rfl fun s _ => maskOf_apply ne thb _)

end Cert.KernelIdeal.SlotAverage

end
-- ==== Proof.KernelBlockValue.lean ====
/-
  What one grid point of the idealized kernel leaves in its scores block and its normalized-scores block, entry by entry,
  as the aggregation of the 256 rows of its input blocks (ONE-HOT form).

  The stored scores are a product with w1 plus the bias row b1; the product's left factor is the mean over the four hedge
  slots of the slot averages plus the feature row of the row's label.  Each slot reads the [256, 1, 64] slab of its number
  out of the edge block and the type block, and the training-edge column repeated along the samples; the four averages
  are one operation (SlotAverage.lean) at four slabs.  The normalized scores are the logistic function of the scores.
-/
import proofs.«430323_j53145925320941_1_alg».proof.Proof.Gen.KernelIdeal.Frame
import proofs.«430323_j53145925320941_1_alg».proof.Proof.AggSpec
import proofs.«430323_j53145925320941_1_alg».proof.Proof.LibPlainMatmul
import proofs.«430323_j53145925320941_1_alg».proof.Proof.SlotAverage

noncomputable section

namespace Cert.KernelIdeal.Scores

open Cert.KernelIdeal Cert.KernelIdeal.Gen Cert.KernelIdeal.SlotAverage Idealize.ShloMosaic Idealize.ShloMosaic.ValueIdx

/-- The offsets of a whole-block access are zero on both axes. -/
theorem off2_zero : (![0, 0] : Fin 2 → Nat) = fun _ => 0 :=
  funext fun a => match a with | ⟨0, _⟩ => rfl | ⟨1, _⟩ => rfl

/-! ## The pieces a slot reads -/

/-- The slab of slot h of a [256, 4, 64] block (offset o = h on the slot axis), seen as [256, 64], reads at (r, s) the
    block's entry (r, h, s). -/
theorem slab_apply (x : Vec Ideal S256x4x64 .i32) (o : Nat)
    (inb : ∀ a, (![0, o, 0] : Fin 3 → Nat) a + S256x1x64.size a ≤ S256x4x64.size a) (h : Fin 4) (ho : h.val = o)
    (r : Fin 256) (s : Fin 64) :
    shapeCast S256x64 (View.ld x (Rect.unit (s := S256x4x64) ![0, o, 0] S256x1x64.size inb)) shapeCasts_S256x1x64_S256x64 (ix2 r s)
      = x (ix3 r h s) := by
  refine (shapeCast_a1b_ab_apply (a := 256) (b := 64) _ _ r s).trans ?_
  show x _ = x _
  refine congrArg x (funext fun a => ?_)
  match a with
  | ⟨0, _⟩ => exact Fin.ext (by show 0 + 1 * r.val = r.val; omega)
  | ⟨1, _⟩ => exact Fin.ext (by show o + 1 * 0 = h.val; omega)
  | ⟨2, _⟩ => exact Fin.ext (by show 0 + 1 * s.val = s.val; omega)

/-- The training-edge column repeated along the 64 samples reads, at (r, s), the column's entry r. -/
theorem thCol_apply (c : Vec Ideal S256x1 .i32) (r : Fin 256) (s : Fin 64) :
    broadcastTo S256x64 (shapeCast S256x1 c shapeCasts_S256x1_S256x1) broadcasts_S256x1_S256x64 (ix2 r s)
      = c (ix2 r (0 : Fin 1)) := by
  refine (broadcastTo_a1_ab_apply _ _ r s).trans ?_
  rw [shapeCast_self]

/-- The type numbers 0 … 31 along the last axis of a [256, 64, 32] block. -/
abbrev typeNumbers : IVec S256x64x32 32 := iota .tc S256x64x32 32 [2] iota_S256x64x32_d2_w32

/-- The average of one slot from the feature table, the slot's edge and type slabs and the training-edge column. -/
def slotAt (tf : Vec Ideal S32x32 .f32) (a b : Vec Ideal S256x1x64 .i32) (c : Vec Ideal S256x1 .i32) : FVec Ideal S256x32 .f32 :=
  slotOf (k0_pay1 tf) typeNumbers (shapeCast S256x64 a shapeCasts_S256x1x64_S256x64)
    (shapeCast S256x64 b shapeCasts_S256x1x64_S256x64)
    (broadcastTo S256x64 (shapeCast S256x1 c shapeCasts_S256x1_S256x1) broadcasts_S256x1_S256x64)

/-- The kernel's mean over the slots IS the four slot averages added in order and divided by four: its payloads spell
    slot 0, then slot 1 added, then slot 2 in three parts, then slot 3 and the division. -/
theorem hedgeMean_eq (tf : Vec Ideal S32x32 .f32) (a0 b0 a1 b1 a2 b2 a3 b3 : Vec Ideal S256x1x64 .i32) (c : Vec Ideal S256x1 .i32) :
    k0_pay10 (k0_pay1 tf) typeNumbers
        (k0_pay6 (k0_pay1 tf) typeNumbers (k0_pay2 tf a0 b0 c) (k0_pay3 a1) (k0_pay4 b1) (k0_pay5 c))
        (k0_pay8 a2 c) (k0_pay9 typeNumbers a2 b2 c) a3 b3 c
      = divf (addf (addf (addf (slotAt tf a0 b0 c) (slotAt tf a1 b1 c)) (slotAt tf a2 b2 c)) (slotAt tf a3 b3 c))
          (broadcast S256x32 (Scalar.ofBits .f32 0x40800000#32)) := rfl

/-! ## The slot averages, the label row and the scores at an entry -/

/-- The average of slot h over the slabs of the edge block and the type block is the specification's slot average. -/
theorem slotAt_apply (x0 x1 : Vec Ideal S256x4x64 .i32) (x2 : Vec Ideal S256x4x64 .f32) (x3 x4 : Vec Ideal S256x1 .i32)
    (x5 x6 : Vec Ideal S32x32 .f32) (x7 : Vec Ideal S1x32 .f32) (x8 : Vec Ideal S64x32 .f32) (x9 : Vec Ideal S1x32 .f32)
    (o : Nat) (inb : ∀ a, (![0, o, 0] : Fin 3 → Nat) a + S256x1x64.size a ≤ S256x4x64.size a) (h : Fin 4) (ho : h.val = o)
    (r : Fin 256) (k : Fin 32) :
    slotAt x5 (View.ld x0 (Rect.unit (s := S256x4x64) ![0, o, 0] S256x1x64.size inb))
        (View.ld x1 (Rect.unit (s := S256x4x64) ![0, o, 0] S256x1x64.size inb)) x3 (ix2 r k)
      = (AggSpec.Inp.of3 x0 x1 x2 x3 x4 x5 x6 x7 x8 x9).avgK r h k := by
  refine (slotOf_apply _ _ _ _ r k).trans ?_
  simp only [slab_apply x0 o inb h ho r, slab_apply x1 o inb h ho r, thCol_apply x3 r]
  rfl

/-- The label's feature row: the product of the label's one-hot row with the feature table. -/
theorem labelRow_apply (tf : Vec Ideal S32x32 .f32) (l : Vec Ideal S256x1 .i32) (r : Fin 256) (k : Fin 32) :
    k0_pay11 (k0_pay1 tf) l (ix2 r k)
      = ∑ t : Fin 32, AggSpec.bit (IntOp.cmpi .eq (l (ix2 r (0 : Fin 1))) (BitVec.ofNat 32 t.val)) * tf (ix2 t k) := by
  refine (PlainMatmul.matmul_zero_apply_of_eq _ rfl none _ (k0_pay1 tf) r k).trans
    (Finset.sum_congr rfl fun t _ => congrArg (· * tf (ix2 t k)) ?_)
  refine (sitofp_extui_bit _).trans (congrArg AggSpec.bit (congrArg₂ (IntOp.cmpi .eq) ?_ ?_))
  · refine (broadcastTo_a1_ab_apply _ _ r t).trans ?_
    rw [shapeCast_self]
  · exact iota_single_apply _ _ _ _ _ _

/-- The scores payload at (r, j): the left factor's row r through w1, plus the bias. -/
theorem scoresPay_apply (u v : FVec Ideal S256x32 .f32) (w1 : Vec Ideal S32x32 .f32) (b1 : Vec Ideal S1x32 .f32)
    (r : Fin 256) (j : Fin 32) :
    k0_pay12 u v w1 b1 (ix2 r j)
      = (∑ k : Fin 32, (u (ix2 r k) + v (ix2 r k)) * w1 (ix2 k j)) + b1 (ix2 (0 : Fin 1) j) := by
  refine congrArg₂ (· + ·) ?_ ?_
  · exact PlainMatmul.matmul_zero_apply_of_eq _ rfl none _ _ r j
  · refine (broadcastTo_1b_ab_apply _ _ r j).trans ?_
    rw [shapeCast_self]

end Cert.KernelIdeal.Scores

namespace Cert.KernelIdeal.BlockValue

open Cert.KernelIdeal Cert.KernelIdeal.Gen Idealize.ShloMosaic Idealize.ShloMosaic.ValueIdx
open Cert.KernelIdeal.Scores

/-- The scores block. -/
theorem scores_block (x0 x1 : Vec Ideal S256x4x64 .i32) (x2 : Vec Ideal S256x4x64 .f32) (x3 x4 : Vec Ideal S256x1 .i32) (x5 x6 : Vec Ideal S32x32 .f32) (x7 : Vec Ideal S1x32 .f32) (x8 : Vec Ideal S64x32 .f32) (x9 : Vec Ideal S1x32 .f32) (r : Fin 256) (j : Fin 32) :
    out0_10 (F := Ideal) x0 x1 x2 x3 x4 x5 x6 x7 x8 x9 (ix2 r j)
      = (AggSpec.Inp.of3 x0 x1 x2 x3 x4 x5 x6 x7 x8 x9).scoresK r j := by
  unfold out0_10
  rw [View.canon_unit_zero off2_zero]
  simp only [View.ld_unit_zero (S := S32x32) off2_zero, View.ld_unit_zero (S := S256x1) off2_zero,
    View.ld_unit_zero (S := S1x32) off2_zero]
  refine (scoresPay_apply _ _ x6 x7 r j).trans ?_
  refine congrArg₂ (· + ·) (Finset.sum_congr rfl fun k _ => congrArg (· * x6 (ix2 k j)) (congrArg₂ (· + ·) ?_ ?_)) rfl
  · -- the mean over the four slots
    refine (congrFun (hedgeMean_eq x5 (View.ld x0 r0_1) (View.ld x1 r0_1) (View.ld x0 r0_3) (View.ld x1 r0_3)
      (View.ld x0 r0_4) (View.ld x1 r0_4) (View.ld x0 r0_5) (View.ld x1 r0_5) x3) (ix2 r k)).trans ?_
    refine congrArg (Ideal.div · AggSpec.four) ?_
    refine Eq.trans ?_ (Fin.sum_univ_four _).symm
    exact congrArg₂ (· + ·) (congrArg₂ (· + ·) (congrArg₂ (· + ·)
      (slotAt_apply x0 x1 x2 x3 x4 x5 x6 x7 x8 x9 0 _ 0 rfl r k)
      (slotAt_apply x0 x1 x2 x3 x4 x5 x6 x7 x8 x9 1 _ 1 rfl r k))
      (slotAt_apply x0 x1 x2 x3 x4 x5 x6 x7 x8 x9 2 _ 2 rfl r k))
      (slotAt_apply x0 x1 x2 x3 x4 x5 x6 x7 x8 x9 3 _ 3 rfl r k)
  · -- the label's feature row
    exact labelRow_apply x5 x4 r k

/-- The normalized-scores block: the logistic function of the scores. -/
theorem snorm_block (x0 x1 : Vec Ideal S256x4x64 .i32) (x2 : Vec Ideal S256x4x64 .f32) (x3 x4 : Vec Ideal S256x1 .i32) (x5 x6 : Vec Ideal S32x32 .f32) (x7 : Vec Ideal S1x32 .f32) (x8 : Vec Ideal S64x32 .f32) (x9 : Vec Ideal S1x32 .f32) (r : Fin 256) (j : Fin 32) :
    out0_11 (F := Ideal) x0 x1 x2 x3 x4 x5 x6 x7 x8 x9 (ix2 r j)
      = Ideal.logistic ((AggSpec.Inp.of3 x0 x1 x2 x3 x4 x5 x6 x7 x8 x9).scoresK r j) := by
  have e : out0_11 (F := Ideal) x0 x1 x2 x3 x4 x5 x6 x7 x8 x9
      = fun i => Ideal.logistic (out0_10 (F := Ideal) x0 x1 x2 x3 x4 x5 x6 x7 x8 x9 i) := by
    unfold out0_11 out0_10
    rw [View.canon_unit_zero off2_zero, View.canon_unit_zero off2_zero]
    rfl
  exact (congrFun e (ix2 r j)).trans (congrArg Ideal.logistic (scores_block x0 x1 x2 x3 x4 x5 x6 x7 x8 x9 r j))

end Cert.KernelIdeal.BlockValue

end
-- ==== Proof.KernelNodeFeatures.lean ====
/-
  What one grid point of the idealized kernel leaves in its node-features block, entry by entry: the mean over the four
  slots of the embeddings of the block's 256 rows, through the second linear layer.

  The block is one store of one value.  That value adds the four [256, 1, 64] slabs of the embedding block (slot h is the
  slab at second coordinate h), each viewed as a [256, 64] matrix, divides every entry by the word of 4.0, multiplies the
  result by the [64, 32] weight matrix into a zero accumulator, and adds the [1, 32] bias row to every row.  Narrowing to
  the shorter float format changes nothing at the ideal values.  Read at (r, j) this is
  (∑ e, ((emb r 0 e + emb r 1 e + emb r 2 e + emb r 3 e) / 4) · w2 e j) + b2 j, and the sum of four terms is the sum over
  the four slots.
-/
import proofs.«430323_j53145925320941_1_alg».proof.Proof.Gen.KernelIdeal.Frame
import proofs.«430323_j53145925320941_1_alg».proof.Proof.AggSpec
import proofs.«430323_j53145925320941_1_alg».proof.Proof.LibPlainMatmul
import Idealize.ShloMosaic.Lib.ValueLayout

noncomputable section

namespace Cert.KernelIdeal.NodeFeatures

open Cert.KernelIdeal Cert.KernelIdeal.Gen Idealize.ShloMosaic Idealize.ShloMosaic.ValueIdx

/-- The two zero offsets of a whole rank-2 rectangle. -/
theorem zero_offsets : (![0, 0] : Fin 2 → Nat) = fun _ => 0 := funext fun a => by fin_cases a <;> rfl

/-- The product's dimension record is the plain one: rows by columns, one contracted coordinate, no batch. -/
theorem dims_plain : dot_S256x64_S64x32_S256x32_1_0_0_1_n_n = DotDims.plain 256 64 32 := rfl

/-- A [256, 1, 64] slab viewed as a [256, 64] matrix reads, at (r, e), the slab at (r, 0, e): both sit at row-major
    position 64·r + e. -/
theorem slab_apply (a : Vec Ideal S256x1x64 .f32) (r : Fin 256) (e : Fin 64) :
    shapeCast S256x64 a shapeCasts_S256x1x64_S256x64 (ix2 r e) = a (ix3 r (0 : Fin 1) e) :=
  shapeCast_apply a shapeCasts_S256x1x64_S256x64 _ _ (by
    rw [Shape.rowMajor_val_three, Shape.rowMajor_val_two]
    show (r.val * 1 + 0) * 64 + e.val = r.val * 64 + e.val
    omega)

/-- The stored value at (r, j), from four slabs, a weight matrix and a bias row: the four slabs added at (r, 0, e),
    over the word of 4.0, times the weights, summed over e, plus the bias at j. -/
theorem value_apply (a0 a1 a2 a3 : Vec Ideal S256x1x64 .f32) (w : Vec Ideal S64x32 .f32) (b : Vec Ideal S1x32 .f32)
    (r : Fin 256) (j : Fin 32) :
    k0_pay13 (F := Ideal) a0 a1 a2 a3 w b (ix2 r j)
      = (∑ e : Fin 64, Ideal.div (((a0 (ix3 r (0 : Fin 1) e) + a1 (ix3 r (0 : Fin 1) e)) + a2 (ix3 r (0 : Fin 1) e))
            + a3 (ix3 r (0 : Fin 1) e)) AggSpec.four * w (ix2 e j)) + b (ix2 (0 : Fin 1) j) := by
  unfold k0_pay13
  -- the last operation is an entrywise sum: the product at (r, j) plus the broadcast bias at (r, j)
  refine (addf_apply _ _ _).trans ?_
  refine congrArg₂ (· + ·) ?_ ?_
  · -- the product into the zero accumulator is the plain sum over the contracted coordinate
    refine (PlainMatmul.matmul_zero_apply_of_eq _ dims_plain none _ _ r j).trans ?_
    refine Finset.sum_congr rfl fun e _ => ?_
    refine congrArg (· * w (ix2 e j)) ?_
    -- the left factor at (r, e): the narrowing is the identity, the division and the three sums are entrywise
    show Ideal.div (((shapeCast S256x64 a0 shapeCasts_S256x1x64_S256x64 (ix2 r e)
        + shapeCast S256x64 a1 shapeCasts_S256x1x64_S256x64 (ix2 r e))
        + shapeCast S256x64 a2 shapeCasts_S256x1x64_S256x64 (ix2 r e))
        + shapeCast S256x64 a3 shapeCasts_S256x1x64_S256x64 (ix2 r e)) AggSpec.four = _
    rw [slab_apply, slab_apply, slab_apply, slab_apply]
  · -- the bias row, cast to its own shape and repeated over the 256 rows, reads its entry j in every row
    refine (broadcastTo_1b_ab_apply _ _ r j).trans ?_
    rw [shapeCast_self]

/-! The four slabs of the embedding block: the slab read from second coordinate h on, one deep, holds at (r, 0, e) the
    block's entry (r, h, e): each coordinate is offset + 1 · (coordinate inside the slab). -/

theorem slot0_apply (x : Vec Ideal S256x4x64 .f32) (r : Fin 256) (e : Fin 64) :
    View.ld x r0_1 (ix3 r (0 : Fin 1) e) = x (ix3 r (0 : Fin 4) e) :=
  congrArg x (funext fun a => Fin.ext (by
    match a with
    | ⟨0, _⟩ => show 0 + 1 * r.val = r.val; omega
    | ⟨1, _⟩ => show 0 + 1 * 0 = 0; rfl
    | ⟨2, _⟩ => show 0 + 1 * e.val = e.val; omega))

theorem slot1_apply (x : Vec Ideal S256x4x64 .f32) (r : Fin 256) (e : Fin 64) :
    View.ld x r0_3 (ix3 r (0 : Fin 1) e) = x (ix3 r (1 : Fin 4) e) :=
  congrArg x (funext fun a => Fin.ext (by
    match a with
    | ⟨0, _⟩ => show 0 + 1 * r.val = r.val; omega
    | ⟨1, _⟩ => show 1 + 1 * 0 = 1; rfl
    | ⟨2, _⟩ => show 0 + 1 * e.val = e.val; omega))

theorem slot2_apply (x : Vec Ideal S256x4x64 .f32) (r : Fin 256) (e : Fin 64) :
    View.ld x r0_4 (ix3 r (0 : Fin 1) e) = x (ix3 r (2 : Fin 4) e) :=
  congrArg x (funext fun a => Fin.ext (by
    match a with
    | ⟨0, _⟩ => show 0 + 1 * r.val = r.val; omega
    | ⟨1, _⟩ => show 2 + 1 * 0 = 2; rfl
    | ⟨2, _⟩ => show 0 + 1 * e.val = e.val; omega))

theorem slot3_apply (x : Vec Ideal S256x4x64 .f32) (r : Fin 256) (e : Fin 64) :
    View.ld x r0_5 (ix3 r (0 : Fin 1) e) = x (ix3 r (3 : Fin 4) e) :=
  congrArg x (funext fun a => Fin.ext (by
    match a with
    | ⟨0, _⟩ => show 0 + 1 * r.val = r.val; omega
    | ⟨1, _⟩ => show 3 + 1 * 0 = 3; rfl
    | ⟨2, _⟩ => show 0 + 1 * e.val = e.val; omega))

end Cert.KernelIdeal.NodeFeatures

namespace Cert.KernelIdeal.BlockValue

open Cert.KernelIdeal Cert.KernelIdeal.Gen Idealize.ShloMosaic Idealize.ShloMosaic.ValueIdx

/-- The node-features block. -/
theorem nfeat_block (x0 x1 : Vec Ideal S256x4x64 .i32) (x2 : Vec Ideal S256x4x64 .f32) (x3 x4 : Vec Ideal S256x1 .i32) (x5 x6 : Vec Ideal S32x32 .f32) (x7 : Vec Ideal S1x32 .f32) (x8 : Vec Ideal S64x32 .f32) (x9 : Vec Ideal S1x32 .f32) (r : Fin 256) (j : Fin 32) :
    out0_12 (F := Ideal) x0 x1 x2 x3 x4 x5 x6 x7 x8 x9 (ix2 r j)
      = (AggSpec.Inp.of3 x0 x1 x2 x3 x4 x5 x6 x7 x8 x9).nfeat r j := by
  -- the block is its one store's value; the weights and the bias row are read whole
  unfold out0_12
  rw [View.canon_unit_zero NodeFeatures.zero_offsets]
  simp only [View.ld_unit_zero (S := S64x32) NodeFeatures.zero_offsets,
    View.ld_unit_zero (S := S1x32) NodeFeatures.zero_offsets]
  refine (NodeFeatures.value_apply _ _ _ _ x8 x9 r j).trans ?_
  -- the node features of row r at j, written over the arrays
  show _ = (∑ e : Fin 64, Ideal.div (∑ h : Fin 4, x2 (ix3 r h e)) AggSpec.four * x8 (ix2 e j)) + x9 (ix2 (0 : Fin 1) j)
  refine congrArg (· + x9 (ix2 (0 : Fin 1) j)) (Finset.sum_congr rfl fun e _ => ?_)
  -- the sum over the four slots is the four slabs' entries added in order
  rw [Fin.sum_univ_four, NodeFeatures.slot0_apply x2 r e, NodeFeatures.slot1_apply x2 r e,
    NodeFeatures.slot2_apply x2 r e, NodeFeatures.slot3_apply x2 r e]

end Cert.KernelIdeal.BlockValue

end
-- ==== Proof.KernelBlockRows.lean ====
/-
  The ten input blocks of a grid point as rows of the region's arrays.  Point t of the sixteen stages rows 256·t … 256·t + 255
  of the three [4096, 4, 64] arrays and of the two [4096, 1] columns, and the three tables and the two bias rows whole.  So the
  data read off the ten blocks of point t is the data of the 4096 rows restricted to those 256 rows.
-/
import proofs.«430323_j53145925320941_1_alg».proof.Proof.KernelData

set_option maxRecDepth 16384

noncomputable section

namespace Cert.KernelIdeal.BlockRows

open Cert.KernelIdeal Cert.KernelIdeal.Gen Cert.KernelIdeal.KData Idealize.ShloMosaic Idealize.ShloMosaic.ValueIdx Idealize.SL.Sem

variable (m : (ℓ : Loc nD τ sig) → Buf (Elt Ideal) ℓ)

/-! ## Where each window's block sits: its block index at point t, decided over the sixteen points

The five row windows move with the point along the first axis and stay at zero on the others; the five table windows stay at
block (0, 0). -/

theorem idx_win0 : ∀ t : Fin cfg0.N,
    win0_0.index t (0 : Fin 3) = t.val ∧ win0_0.index t (1 : Fin 3) = 0 ∧ win0_0.index t (2 : Fin 3) = 0 :=
  (by decide +kernel : ∀ t : Fin grid0.N, _)
theorem idx_win1 : ∀ t : Fin cfg0.N,
    win0_1.index t (0 : Fin 3) = t.val ∧ win0_1.index t (1 : Fin 3) = 0 ∧ win0_1.index t (2 : Fin 3) = 0 :=
  (by decide +kernel : ∀ t : Fin grid0.N, _)
theorem idx_win2 : ∀ t : Fin cfg0.N,
    win0_2.index t (0 : Fin 3) = t.val ∧ win0_2.index t (1 : Fin 3) = 0 ∧ win0_2.index t (2 : Fin 3) = 0 :=
  (by decide +kernel : ∀ t : Fin grid0.N, _)
theorem idx_win3 : ∀ t : Fin cfg0.N, win0_3.index t (0 : Fin 2) = t.val ∧ win0_3.index t (1 : Fin 2) = 0 :=
  (by decide +kernel : ∀ t : Fin grid0.N, _)
theorem idx_win4 : ∀ t : Fin cfg0.N, win0_4.index t (0 : Fin 2) = t.val ∧ win0_4.index t (1 : Fin 2) = 0 :=
  (by decide +kernel : ∀ t : Fin grid0.N, _)
theorem idx_win5 : ∀ t : Fin cfg0.N, win0_5.index t (0 : Fin 2) = 0 ∧ win0_5.index t (1 : Fin 2) = 0 :=
  (by decide +kernel : ∀ t : Fin grid0.N, _)
theorem idx_win6 : ∀ t : Fin cfg0.N, win0_6.index t (0 : Fin 2) = 0 ∧ win0_6.index t (1 : Fin 2) = 0 :=
  (by decide +kernel : ∀ t : Fin grid0.N, _)
theorem idx_win7 : ∀ t : Fin cfg0.N, win0_7.index t (0 : Fin 2) = 0 ∧ win0_7.index t (1 : Fin 2) = 0 :=
  (by decide +kernel : ∀ t : Fin grid0.N, _)
theorem idx_win8 : ∀ t : Fin cfg0.N, win0_8.index t (0 : Fin 2) = 0 ∧ win0_8.index t (1 : Fin 2) = 0 :=
  (by decide +kernel : ∀ t : Fin grid0.N, _)
theorem idx_win9 : ∀ t : Fin cfg0.N, win0_9.index t (0 : Fin 2) = 0 ∧ win0_9.index t (1 : Fin 2) = 0 :=
  (by decide +kernel : ∀ t : Fin grid0.N, _)

/-! ## The blocks read at an entry

On each axis an entry of a block sits in the array at the block index times the block's extent plus its coordinate inside the
block. -/

/-- The edge words: entry (r, h, s) of point t's block is entry (256·t + r, h, s) of the [4096, 4, 64] array. -/
theorem blk0_apply (c : Dev nD) (t : Fin cfg0.N) (x : S256x4x64.Idx) (k : S4096x4x64.Idx)
    (hk0 : (k 0).val = 256 * t.val + (x 0).val) (hk1 : (k 1).val = (x 1).val) (hk2 : (k 2).val = (x 2).val) :
    (iblk m c 0 t : Vec Ideal S256x4x64 .i32) x = (V m c main_v24 : S4096x4x64.Idx → Elt Ideal .i32) k := by
  obtain ⟨e0, e1, e2⟩ := idx_win0 t
  unfold iblk
  rw [View.read_apply]
  show V m c main_v24 _ = V m c main_v24 _
  congr 1
  funext a
  apply Fin.ext
  match a with
  | ⟨0, _⟩ => show win0_0.index t 0 * 256 + 1 * (x 0).val = (k 0).val; rw [e0, hk0]; omega
  | ⟨1, _⟩ => show win0_0.index t 1 * 4 + 1 * (x 1).val = (k 1).val; rw [e1, hk1]; omega
  | ⟨2, _⟩ => show win0_0.index t 2 * 64 + 1 * (x 2).val = (k 2).val; rw [e2, hk2]; omega

/-- The type words, likewise. -/
theorem blk1_apply (c : Dev nD) (t : Fin cfg0.N) (x : S256x4x64.Idx) (k : S4096x4x64.Idx)
    (hk0 : (k 0).val = 256 * t.val + (x 0).val) (hk1 : (k 1).val = (x 1).val) (hk2 : (k 2).val = (x 2).val) :
    (iblk m c 1 t : Vec Ideal S256x4x64 .i32) x = (V m c main_v26 : S4096x4x64.Idx → Elt Ideal .i32) k := by
  obtain ⟨e0, e1, e2⟩ := idx_win1 t
  unfold iblk
  rw [View.read_apply]
  show V m c main_v26 _ = V m c main_v26 _
  congr 1
  funext a
  apply Fin.ext
  match a with
  | ⟨0, _⟩ => show win0_1.index t 0 * 256 + 1 * (x 0).val = (k 0).val; rw [e0, hk0]; omega
  | ⟨1, _⟩ => show win0_1.index t 1 * 4 + 1 * (x 1).val = (k 1).val; rw [e1, hk1]; omega
  | ⟨2, _⟩ => show win0_1.index t 2 * 64 + 1 * (x 2).val = (k 2).val; rw [e2, hk2]; omega

/-- The embeddings, likewise. -/
theorem blk2_apply (c : Dev nD) (t : Fin cfg0.N) (x : S256x4x64.Idx) (k : S4096x4x64.Idx)
    (hk0 : (k 0).val = 256 * t.val + (x 0).val) (hk1 : (k 1).val = (x 1).val) (hk2 : (k 2).val = (x 2).val) :
    (iblk m c 2 t : Vec Ideal S256x4x64 .f32) x = (V m c main_v25 : S4096x4x64.Idx → Elt Ideal .f32) k := by
  obtain ⟨e0, e1, e2⟩ := idx_win2 t
  unfold iblk
  rw [View.read_apply]
  show V m c main_v25 _ = V m c main_v25 _
  congr 1
  funext a
  apply Fin.ext
  match a with
  | ⟨0, _⟩ => show win0_2.index t 0 * 256 + 1 * (x 0).val = (k 0).val; rw [e0, hk0]; omega
  | ⟨1, _⟩ => show win0_2.index t 1 * 4 + 1 * (x 1).val = (k 1).val; rw [e1, hk1]; omega
  | ⟨2, _⟩ => show win0_2.index t 2 * 64 + 1 * (x 2).val = (k 2).val; rw [e2, hk2]; omega

/-- The training edges: entry (r, 0) of point t's block is entry (256·t + r, 0) of the [4096, 1] column. -/
theorem blk3_apply (c : Dev nD) (t : Fin cfg0.N) (x : S256x1.Idx) (k : S4096x1.Idx)
    (hk0 : (k 0).val = 256 * t.val + (x 0).val) (hk1 : (k 1).val = (x 1).val) :
    (iblk m c 3 t : Vec Ideal S256x1 .i32) x = (V m c main_v27 : S4096x1.Idx → Elt Ideal .i32) k := by
  obtain ⟨e0, e1⟩ := idx_win3 t
  unfold iblk
  rw [View.read_apply]
  show V m c main_v27 _ = V m c main_v27 _
  congr 1
  funext a
  apply Fin.ext
  match a with
  | ⟨0, _⟩ => show win0_3.index t 0 * 256 + 1 * (x 0).val = (k 0).val; rw [e0, hk0]; omega
  | ⟨1, _⟩ => show win0_3.index t 1 * 1 + 1 * (x 1).val = (k 1).val; rw [e1, hk1]; omega

/-- The labels, likewise. -/
theorem blk4_apply (c : Dev nD) (t : Fin cfg0.N) (x : S256x1.Idx) (k : S4096x1.Idx)
    (hk0 : (k 0).val = 256 * t.val + (x 0).val) (hk1 : (k 1).val = (x 1).val) :
    (iblk m c 4 t : Vec Ideal S256x1 .i32) x = (V m c main_v28 : S4096x1.Idx → Elt Ideal .i32) k := by
  obtain ⟨e0, e1⟩ := idx_win4 t
  unfold iblk
  rw [View.read_apply]
  show V m c main_v28 _ = V m c main_v28 _
  congr 1
  funext a
  apply Fin.ext
  match a with
  | ⟨0, _⟩ => show win0_4.index t 0 * 256 + 1 * (x 0).val = (k 0).val; rw [e0, hk0]; omega
  | ⟨1, _⟩ => show win0_4.index t 1 * 1 + 1 * (x 1).val = (k 1).val; rw [e1, hk1]; omega

/-- The type features are staged whole at every point. -/
theorem blk5_eq (c : Dev nD) (t : Fin cfg0.N) :
    (iblk m c 5 t : Vec Ideal S32x32 .f32) = (V m c main_arg6 : S32x32.Idx → Elt Ideal .f32) := by
  obtain ⟨e0, e1⟩ := idx_win5 t
  funext x
  unfold iblk
  rw [View.read_apply]
  show V m c main_arg6 _ = V m c main_arg6 _
  congr 1
  funext a
  apply Fin.ext
  match a with
  | ⟨0, _⟩ => show win0_5.index t 0 * 32 + 1 * (x 0).val = (x 0).val; rw [e0]; omega
  | ⟨1, _⟩ => show win0_5.index t 1 * 32 + 1 * (x 1).val = (x 1).val; rw [e1]; omega

/-- So is the first layer's matrix. -/
theorem blk6_eq (c : Dev nD) (t : Fin cfg0.N) :
    (iblk m c 6 t : Vec Ideal S32x32 .f32) = (V m c main_arg7 : S32x32.Idx → Elt Ideal .f32) := by
  obtain ⟨e0, e1⟩ := idx_win6 t
  funext x
  unfold iblk
  rw [View.read_apply]
  show V m c main_arg7 _ = V m c main_arg7 _
  congr 1
  funext a
  apply Fin.ext
  match a with
  | ⟨0, _⟩ => show win0_6.index t 0 * 32 + 1 * (x 0).val = (x 0).val; rw [e0]; omega
  | ⟨1, _⟩ => show win0_6.index t 1 * 32 + 1 * (x 1).val = (x 1).val; rw [e1]; omega

/-- So is the first layer's bias row. -/
theorem blk7_eq (c : Dev nD) (t : Fin cfg0.N) :
    (iblk m c 7 t : Vec Ideal S1x32 .f32) = (V m c main_v29 : S1x32.Idx → Elt Ideal .f32) := by
  obtain ⟨e0, e1⟩ := idx_win7 t
  funext x
  unfold iblk
  rw [View.read_apply]
  show V m c main_v29 _ = V m c main_v29 _
  congr 1
  funext a
  apply Fin.ext
  match a with
  | ⟨0, _⟩ => show win0_7.index t 0 * 1 + 1 * (x 0).val = (x 0).val; rw [e0]; omega
  | ⟨1, _⟩ => show win0_7.index t 1 * 32 + 1 * (x 1).val = (x 1).val; rw [e1]; omega

/-- So is the second layer's matrix. -/
theorem blk8_eq (c : Dev nD) (t : Fin cfg0.N) :
    (iblk m c 8 t : Vec Ideal S64x32 .f32) = (V m c main_arg9 : S64x32.Idx → Elt Ideal .f32) := by
  obtain ⟨e0, e1⟩ := idx_win8 t
  funext x
  unfold iblk
  rw [View.read_apply]
  show V m c main_arg9 _ = V m c main_arg9 _
  congr 1
  funext a
  apply Fin.ext
  match a with
  | ⟨0, _⟩ => show win0_8.index t 0 * 64 + 1 * (x 0).val = (x 0).val; rw [e0]; omega
  | ⟨1, _⟩ => show win0_8.index t 1 * 32 + 1 * (x 1).val = (x 1).val; rw [e1]; omega

/-- So is the second layer's bias row. -/
theorem blk9_eq (c : Dev nD) (t : Fin cfg0.N) :
    (iblk m c 9 t : Vec Ideal S1x32 .f32) = (V m c main_v30 : S1x32.Idx → Elt Ideal .f32) := by
  obtain ⟨e0, e1⟩ := idx_win9 t
  funext x
  unfold iblk
  rw [View.read_apply]
  show V m c main_v30 _ = V m c main_v30 _
  congr 1
  funext a
  apply Fin.ext
  match a with
  | ⟨0, _⟩ => show win0_9.index t 0 * 1 + 1 * (x 0).val = (x 0).val; rw [e0]; omega
  | ⟨1, _⟩ => show win0_9.index t 1 * 32 + 1 * (x 1).val = (x 1).val; rw [e1]; omega

/-! ## The data of a point's blocks -/

/-- A grid point as a number below 16. -/
def pt (t : Fin cfg0.N) : Fin 16 := Fin.cast (N_0 : cfg0.N = 16) t

/-- Row r of point t's block is one of the 4096 rows. -/
theorem row_lt (t : Fin cfg0.N) (r : Fin 256) : 256 * t.val + r.val < 4096 := by
  have h : t.val < 16 := (pt t).isLt
  omega

/-- Ten arrays of which the first five read five whole arrays at rows 256·p … 256·p + 255 carry the data of those rows. -/
theorem of3_eq_block (x0 x1 : S256x4x64.Idx → BitVec 32) (x2 : S256x4x64.Idx → EReal) (x3 x4 : S256x1.Idx → BitVec 32)
    (x5 x6 : S32x32.Idx → EReal) (x7 : S1x32.Idx → EReal) (x8 : S64x32.Idx → EReal) (x9 : S1x32.Idx → EReal)
    (A0 A1 : S4096x4x64.Idx → BitVec 32) (A2 : S4096x4x64.Idx → EReal) (A3 A4 : S4096x1.Idx → BitVec 32) (p : Fin 16)
    (h0 : ∀ (b : Fin 256) (h : Fin 4) (s : Fin 64), x0 (ix3 b h s) = A0 (ix3 ⟨256 * p.val + b.val, by omega⟩ h s))
    (h1 : ∀ (b : Fin 256) (h : Fin 4) (s : Fin 64), x1 (ix3 b h s) = A1 (ix3 ⟨256 * p.val + b.val, by omega⟩ h s))
    (h2 : ∀ (b : Fin 256) (h : Fin 4) (s : Fin 64), x2 (ix3 b h s) = A2 (ix3 ⟨256 * p.val + b.val, by omega⟩ h s))
    (h3 : ∀ b : Fin 256, x3 (ix2 b 0) = A3 (ix2 ⟨256 * p.val + b.val, by omega⟩ 0))
    (h4 : ∀ b : Fin 256, x4 (ix2 b 0) = A4 (ix2 ⟨256 * p.val + b.val, by omega⟩ 0)) :
    AggSpec.Inp.of3 x0 x1 x2 x3 x4 x5 x6 x7 x8 x9 = (AggSpec.Inp.of3 A0 A1 A2 A3 A4 x5 x6 x7 x8 x9).block p := by
  apply AggSpec.Inp.ext
  · funext b h s; exact h0 b h s
  · funext b h s; exact h1 b h s
  · funext b h s; exact h2 b h s
  · funext b; exact h3 b
  · funext b; exact h4 b
  all_goals rfl

/-- The data read off the ten blocks of point t is rows 256·t … 256·t + 255 of the data of all rows. -/
theorem of3_blocks (c : Dev nD) (t : Fin cfg0.N) :
    AggSpec.Inp.of3 (iblk m c 0 t) (iblk m c 1 t) (iblk m c 2 t) (iblk m c 3 t) (iblk m c 4 t) (iblk m c 5 t)
      (iblk m c 6 t) (iblk m c 7 t) (iblk m c 8 t) (iblk m c 9 t) = (kInp3 m c).block (pt t) := by
  rw [blk5_eq m c t, blk6_eq m c t, blk7_eq m c t, blk8_eq m c t, blk9_eq m c t]
  exact of3_eq_block (iblk m c 0 t) (iblk m c 1 t) (iblk m c 2 t) (iblk m c 3 t) (iblk m c 4 t) (V m c main_arg6) (V m c main_arg7)
    (V m c main_v29) (V m c main_arg9) (V m c main_v30) (V m c main_v24) (V m c main_v26) (V m c main_v25) (V m c main_v27)
    (V m c main_v28) (pt t)
    (fun b h s => blk0_apply m c t (ix3 b h s) (ix3 ⟨256 * (pt t).val + b.val, by omega⟩ h s) rfl rfl rfl)
    (fun b h s => blk1_apply m c t (ix3 b h s) (ix3 ⟨256 * (pt t).val + b.val, by omega⟩ h s) rfl rfl rfl)
    (fun b h s => blk2_apply m c t (ix3 b h s) (ix3 ⟨256 * (pt t).val + b.val, by omega⟩ h s) rfl rfl rfl)
    (fun b => blk3_apply m c t (ix2 b 0) (ix2 ⟨256 * (pt t).val + b.val, by omega⟩ 0) rfl rfl)
    (fun b => blk4_apply m c t (ix2 b 0) (ix2 ⟨256 * (pt t).val + b.val, by omega⟩ 0) rfl rfl)

end Cert.KernelIdeal.BlockRows

end
-- ==== Proof.KernelBlocksWritten.lean ====
/-
  What each grid point writes back to the three output arrays.  An output block at point t is [256, 32] at block index (t, 0) of a
  [4096, 32] array, so its entry (r, j) is the array's entry (256·t + r, j).  The block the body leaves there is, entry by entry,
  the scores (their logistic values, the node features) of row r of the data read off the point's ten input blocks, which is
  row 256·t + r of the data of all rows.  So what point t writes back is block t of ONE array: the scores of all rows, their
  logistic values, the node features of all rows.
-/
import proofs.«430323_j53145925320941_1_alg».proof.Proof.KernelBlockRows
import proofs.«430323_j53145925320941_1_alg».proof.Proof.KernelBlockValue
import proofs.«430323_j53145925320941_1_alg».proof.Proof.KernelNodeFeatures
import Idealize.ShloMosaic.Lib.Pipeline.Value

set_option maxRecDepth 16384

noncomputable section

namespace Cert.KernelIdeal.BlocksWritten

open Cert.KernelIdeal Cert.KernelIdeal.Gen Cert.KernelIdeal.KData Cert.KernelIdeal.BlockRows
open Idealize.ShloMosaic Idealize.ShloMosaic.ValueIdx Idealize.SL.Sem
open Idealize.ShloMosaic.Pipeline (Dat)

variable (m : (ℓ : Loc nD τ sig) → Buf (Elt Ideal) ℓ)

/-- The three output windows move with the point along the rows and stay at zero along the columns (decided over the sixteen
    points). -/
theorem idx_out : ∀ t : Fin cfg0.N,
    win0_10.index t (0 : Fin 2) = t.val ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- The [4096, 32] array of a function of row and column, at an entry whose row is 256·p + r and whose column is q. -/
theorem arr_row (f : Fin 4096 → Fin 32 → EReal) (p : Fin 16) (r : Fin 256) (q : Fin 32) (i : S4096x32.Idx)
    (h0 : (i 0).val = 256 * p.val + r.val) (h1 : (i 1).val = q.val) :
    f ⟨256 * p.val + r.val, by omega⟩ q = AggSpec.arr f i := by
  have e0 : (⟨256 * p.val + r.val, by omega⟩ : Fin 4096) = i 0 := Fin.ext h0.symm
  have e1 : q = i 1 := Fin.ext h1.symm
  rw [e0, e1]; rfl

/-! ## The three blocks the body leaves at point t, entry by entry, as entries of arrays of all rows -/

/-- The scores block: entry j is the entry of the scores of all rows that lies 256·t rows further down. -/
theorem scores_entry (c : Dev nD) (t : Fin cfg0.N) (j : S256x32.Idx) (i : S4096x32.Idx)
    (h0 : (i 0).val = 256 * t.val + (j 0).val) (h1 : (i 1).val = (j 1).val) :
    out0_10 (F := Ideal) (iblk m c 0 t) (iblk m c 1 t) (iblk m c 2 t) (iblk m c 3 t) (iblk m c 4 t) (iblk m c 5 t)
      (iblk m c 6 t) (iblk m c 7 t) (iblk m c 8 t) (iblk m c 9 t) j = AggSpec.arr (kInp3 m c).scoresK i := by
  obtain ⟨r, q, rfl⟩ : ∃ (r : Fin 256) (q : Fin 32), j = ix2 r q := ⟨j 0, j 1, eq_ix2 j⟩
  refine (BlockValue.scores_block (iblk m c 0 t) (iblk m c 1 t) (iblk m c 2 t) (iblk m c 3 t) (iblk m c 4 t) (iblk m c 5 t)
      (iblk m c 6 t) (iblk m c 7 t) (iblk m c 8 t) (iblk m c 9 t) r q).trans ?_
  refine (congrArg (fun I : AggSpec.Inp 256 => I.scoresK r q) (of3_blocks m c t)).trans ?_
  refine (AggSpec.Inp.scoresK_block (kInp3 m c) (pt t) r q).trans ?_
  exact arr_row (kInp3 m c).scoresK (pt t) r q i h0 h1

/-- The normalized-scores block: the logistic value of the same entry. -/
theorem snorm_entry (c : Dev nD) (t : Fin cfg0.N) (j : S256x32.Idx) (i : S4096x32.Idx)
    (h0 : (i 0).val = 256 * t.val + (j 0).val) (h1 : (i 1).val = (j 1).val) :
    out0_11 (F := Ideal) (iblk m c 0 t) (iblk m c 1 t) (iblk m c 2 t) (iblk m c 3 t) (iblk m c 4 t) (iblk m c 5 t)
      (iblk m c 6 t) (iblk m c 7 t) (iblk m c 8 t) (iblk m c 9 t) j = AggSpec.sigArr (kInp3 m c).scoresK i := by
  obtain ⟨r, q, rfl⟩ : ∃ (r : Fin 256) (q : Fin 32), j = ix2 r q := ⟨j 0, j 1, eq_ix2 j⟩
  refine (BlockValue.snorm_block (iblk m c 0 t) (iblk m c 1 t) (iblk m c 2 t) (iblk m c 3 t) (iblk m c 4 t) (iblk m c 5 t)
      (iblk m c 6 t) (iblk m c 7 t) (iblk m c 8 t) (iblk m c 9 t) r q).trans ?_
  refine (congrArg (fun I : AggSpec.Inp 256 => Ideal.logistic (I.scoresK r q)) (of3_blocks m c t)).trans ?_
  refine (congrArg Ideal.logistic (AggSpec.Inp.scoresK_block (kInp3 m c) (pt t) r q)).trans ?_
  exact arr_row (fun b k => Ideal.logistic ((kInp3 m c).scoresK b k)) (pt t) r q i h0 h1

/-- The node-features block: entry j is the entry of the node features of all rows that lies 256·t rows further down. -/
theorem nfeat_entry (c : Dev nD) (t : Fin cfg0.N) (j : S256x32.Idx) (i : S4096x32.Idx)
    (h0 : (i 0).val = 256 * t.val + (j 0).val) (h1 : (i 1).val = (j 1).val) :
    out0_12 (F := Ideal) (iblk m c 0 t) (iblk m c 1 t) (iblk m c 2 t) (iblk m c 3 t) (iblk m c 4 t) (iblk m c 5 t)
      (iblk m c 6 t) (iblk m c 7 t) (iblk m c 8 t) (iblk m c 9 t) j = AggSpec.arr (kInp3 m c).nfeat i := by
  obtain ⟨r, q, rfl⟩ : ∃ (r : Fin 256) (q : Fin 32), j = ix2 r q := ⟨j 0, j 1, eq_ix2 j⟩
  refine (BlockValue.nfeat_block (iblk m c 0 t) (iblk m c 1 t) (iblk m c 2 t) (iblk m c 3 t) (iblk m c 4 t) (iblk m c 5 t)
      (iblk m c 6 t) (iblk m c 7 t) (iblk m c 8 t) (iblk m c 9 t) r q).trans ?_
  refine (congrArg (fun I : AggSpec.Inp 256 => I.nfeat r q) (of3_blocks m c t)).trans ?_
  refine (AggSpec.Inp.nfeat_block (kInp3 m c) (pt t) r q).trans ?_
  exact arr_row (kInp3 m c).nfeat (pt t) r q i h0 h1

/-! ## What point t writes back is block t of one array -/

/-- The scores array's block. -/
theorem written_scores (c : Dev nD) (t : Fin cfg0.N) :
    (dats m 0 c).flushed 10 t = ((cfg0.win 10).blk t).view.read (Elt Ideal) (AggSpec.arr (kInp3 m c).scoresK) := by
  obtain ⟨e0, e1, -⟩ := idx_out t
  show (cfg0.win 10).cut (grid0.coords t) ((dats m 0 c).after 10 t) = _
  rw [after0_10]
  funext j
  rw [View.read_apply]
  refine scores_entry m c t j (((cfg0.win 10).blk t).view.emb j) ?_ ?_
  · show win0_10.index t 0 * 256 + 1 * (j 0).val = 256 * t.val + (j 0).val; rw [e0]; omega
  · show win0_10.index t 1 * 32 + 1 * (j 1).val = (j 1).val; rw [e1]; omega

/-- The normalized-scores array's block. -/
theorem written_snorm (c : Dev nD) (t : Fin cfg0.N) :
    (dats m 0 c).flushed 11 t = ((cfg0.win 11).blk t).view.read (Elt Ideal) (AggSpec.sigArr (kInp3 m c).scoresK) := by
  obtain ⟨-, -, e0, e1, -⟩ := idx_out t
  show (cfg0.win 11).cut (grid0.coords t) ((dats m 0 c).after 11 t) = _
  rw [after0_11]
  funext j
  rw [View.read_apply]
  refine snorm_entry m c t j (((cfg0.win 11).blk t).view.emb j) ?_ ?_
  · show win0_11.index t 0 * 256 + 1 * (j 0).val = 256 * t.val + (j 0).val; rw [e0]; omega
  · show win0_11.index t 1 * 32 + 1 * (j 1).val = (j 1).val; rw [e1]; omega

/-- The node-features array's block. -/
theorem written_nfeat (c : Dev nD) (t : Fin cfg0.N) :
    (dats m 0 c).flushed 12 t = ((cfg0.win 12).blk t).view.read (Elt Ideal) (AggSpec.arr (kInp3 m c).nfeat) := by
  obtain ⟨-, -, -, -, e0, e1⟩ := idx_out t
  show (cfg0.win 12).cut (grid0.coords t) ((dats m 0 c).after 12 t) = _
  rw [after0_12]
  funext j
  rw [View.read_apply]
  refine nfeat_entry m c t j (((cfg0.win 12).blk t).view.emb j) ?_ ?_
  · show win0_12.index t 0 * 256 + 1 * (j 0).val = 256 * t.val + (j 0).val; rw [e0]; omega
  · show win0_12.index t 1 * 32 + 1 * (j 1).val = (j 1).val; rw [e1]; omega

end Cert.KernelIdeal.BlocksWritten

end
-- ==== Proof.KernelArraysTiled.lean ====
/-
  The three output arrays after the run.  Row i of a [4096, 32] array lies in the block of point i / 256, and every point
  writes its block back; so the sixteen blocks tile each array, and since each point writes block t of one array of all rows
  (the scores, their logistic values, the node features), that array is what the output holds after the last write-back.
-/
import proofs.«430323_j53145925320941_1_alg».proof.Proof.KernelBlocksWritten

set_option maxRecDepth 16384

noncomputable section

namespace Cert.KernelIdeal.ArraysTiled

open Cert.KernelIdeal Cert.KernelIdeal.Gen Cert.KernelIdeal.KData Cert.KernelIdeal.BlocksWritten
open Idealize.ShloMosaic Idealize.ShloMosaic.ValueIdx Idealize.SL.Sem
open Idealize.ShloMosaic.Pipeline (Dat)

variable (m : (ℓ : Loc nD τ sig) → Buf (Elt Ideal) ℓ)

/-! ## An entry is in point t's block iff each coordinate is in the block's range on its axis -/

theorem mem_blk_scores (t : Fin cfg0.N) (i : S4096x32.Idx) :
    i ∈ ((cfg0.win 10).blk t).view.set ↔ ∀ a : Fin 2, win0_10.index t a * S256x32.size a ≤ (i a).val
      ∧ (i a).val < win0_10.index t a * S256x32.size a + S256x32.size a := by
  show i ∈ ((View.whole main_v31_0).slice (win0_10.rect t)).set ↔ _
  rw [View.set_slice_whole, Rect.mem_set_unit]
  exact Iff.rfl

theorem mem_blk_snorm (t : Fin cfg0.N) (i : S4096x32.Idx) :
    i ∈ ((cfg0.win 11).blk t).view.set ↔ ∀ a : Fin 2, win0_11.index t a * S256x32.size a ≤ (i a).val
      ∧ (i a).val < win0_11.index t a * S256x32.size a + S256x32.size a := by
  show i ∈ ((View.whole main_v31_1).slice (win0_11.rect t)).set ↔ _
  rw [View.set_slice_whole, Rect.mem_set_unit]
  exact Iff.rfl

theorem mem_blk_nfeat (t : Fin cfg0.N) (i : S4096x32.Idx) :
    i ∈ ((cfg0.win 12).blk t).view.set ↔ ∀ a : Fin 2, win0_12.index t a * S256x32.size a ≤ (i a).val
      ∧ (i a).val < win0_12.index t a * S256x32.size a + S256x32.size a := by
  show i ∈ ((View.whole main_v31_2).slice (win0_12.rect t)).set ↔ _
  rw [View.set_slice_whole, Rect.mem_set_unit]
  exact Iff.rfl

/-- The point whose block holds row i: i / 256. -/
theorem point_of_row (i : S4096x32.Idx) : ∃ t : Fin cfg0.N, t.val = (i 0).val / 256 := by
  have hi0 : (i 0).val < 4096 := (i 0).isLt
  exact ⟨Fin.cast (N_0 : cfg0.N = 16).symm ⟨(i 0).val / 256, by omega⟩, rfl⟩

/-! ## The sixteen blocks tile each array -/

theorem cover_scores (i : S4096x32.Idx) :
    ∃ t : Fin cfg0.N, (cfg0.win 10).flush t = true ∧ i ∈ ((cfg0.win 10).blk t).view.set := by
  have hi1 : (i 1).val < 32 := (i 1).isLt
  obtain ⟨t, ht⟩ := point_of_row i
  obtain ⟨e0, e1, -⟩ := idx_out t
  refine ⟨t, flush0_10 t, ?_⟩
  rw [mem_blk_scores]
  intro a
  match a with
  | ⟨0, _⟩ => show win0_10.index t 0 * 256 ≤ (i 0).val ∧ (i 0).val < win0_10.index t 0 * 256 + 256; rw [e0, ht]; omega
  | ⟨1, _⟩ => show win0_10.index t 1 * 32 ≤ (i 1).val ∧ (i 1).val < win0_10.index t 1 * 32 + 32; rw [e1]; omega

theorem cover_snorm (i : S4096x32.Idx) :
    ∃ t : Fin cfg0.N, (cfg0.win 11).flush t = true ∧ i ∈ ((cfg0.win 11).blk t).view.set := by
  have hi1 : (i 1).val < 32 := (i 1).isLt
  obtain ⟨t, ht⟩ := point_of_row i
  obtain ⟨-, -, e0, e1, -⟩ := idx_out t
  refine ⟨t, flush0_11 t, ?_⟩
  rw [mem_blk_snorm]
  intro a
  match a with
  | ⟨0, _⟩ => show win0_11.index t 0 * 256 ≤ (i 0).val ∧ (i 0).val < win0_11.index t 0 * 256 + 256; rw [e0, ht]; omega
  | ⟨1, _⟩ => show win0_11.index t 1 * 32 ≤ (i 1).val ∧ (i 1).val < win0_11.index t 1 * 32 + 32; rw [e1]; omega

theorem cover_nfeat (i : S4096x32.Idx) :
    ∃ t : Fin cfg0.N, (cfg0.win 12).flush t = true ∧ i ∈ ((cfg0.win 12).blk t).view.set := by
  have hi1 : (i 1).val < 32 := (i 1).isLt
  obtain ⟨t, ht⟩ := point_of_row i
  obtain ⟨-, -, -, -, e0, e1⟩ := idx_out t
  refine ⟨t, flush0_12 t, ?_⟩
  rw [mem_blk_nfeat]
  intro a
  match a with
  | ⟨0, _⟩ => show win0_12.index t 0 * 256 ≤ (i 0).val ∧ (i 0).val < win0_12.index t 0 * 256 + 256; rw [e0, ht]; omega
  | ⟨1, _⟩ => show win0_12.index t 1 * 32 ≤ (i 1).val ∧ (i 1).val < win0_12.index t 1 * 32 + 32; rw [e1]; omega

/-! ## The arrays after the last write-back -/

/-- The first result holds the scores of all rows. -/
theorem final_scores (c : Dev nD) : (dats m 0 c).arrAt 10 cfg0.N = AggSpec.arr (kInp3 m c).scoresK :=
  (dats m 0 c).arrAt_eq_of_cover 10 (AggSpec.arr (kInp3 m c).scoresK) (fun t _ => written_scores m c t) cover_scores

/-- The second result holds their logistic values. -/
theorem final_snorm (c : Dev nD) : (dats m 0 c).arrAt 11 cfg0.N = AggSpec.sigArr (kInp3 m c).scoresK :=
  (dats m 0 c).arrAt_eq_of_cover 11 (AggSpec.sigArr (kInp3 m c).scoresK) (fun t _ => written_snorm m c t) cover_snorm

/-- The third result of the region holds the node features of all rows. -/
theorem final_nfeat (c : Dev nD) : (dats m 0 c).arrAt 12 cfg0.N = AggSpec.arr (kInp3 m c).nfeat :=
  (dats m 0 c).arrAt_eq_of_cover 12 (AggSpec.arr (kInp3 m c).nfeat) (fun t _ => written_nfeat m c t) cover_nfeat

end Cert.KernelIdeal.ArraysTiled

end
-- ==== Proof.KernelArrays.lean ====
/-
  The idealized kernel's run with its three results named: every block of an output array is what its grid point wrote, the
  sixteen blocks tile the array, and the host line after the region joins scores and node features.
-/
import proofs.«430323_j53145925320941_1_alg».proof.Proof.KernelData
import proofs.«430323_j53145925320941_1_alg».proof.Proof.KernelBlockValue
import proofs.«430323_j53145925320941_1_alg».proof.Proof.KernelNodeFeatures
import proofs.«430323_j53145925320941_1_alg».proof.Proof.KernelArraysTiled
import Idealize.ShloMosaic.Lib.Pipeline.Value
import Idealize.ShloMosaic.Lib.StableHlo.Run
import Idealize.ShloMosaic.Lib.Tactic

noncomputable section

namespace Cert.KernelIdeal.KValue

open Cert.KernelIdeal Cert.KernelIdeal.Gen Cert.KernelIdeal.KData Idealize.ShloMosaic Idealize.ShloMosaic.ValueIdx Idealize.SL.Sem

open Cert.KernelIdeal.ArraysTiled
open Idealize.ShloMosaic.Pipeline (Dat)

variable (m : (ℓ : Loc nD τ sig) → Buf (Elt Ideal) ℓ) (ρ : Dev nD → PrngReg)

/-- The host line after the region joins the first and the third result of the region along the columns: what it leaves is
    the scores and the node features of all rows side by side. -/
theorem joined (c : Dev nD) : Pipeline.afterTail₀ cfgs (dats m) 0 (V0 m) [hostOps1] c main_v32
    = AggSpec.catArr concatenates_S4096x32_S4096x32_S4096x64_d1 (kInp3 m c).scoresK (kInp3 m c).nfeat := by
  have e10 : Pipeline.withArrays (cfgs 0).spec c (V0 m c) (fun w => (dats m 0 c).arrAt w (cfgs 0).N) (Proc.devRef .tc main_v31_0)
      = AggSpec.arr (kInp3 m c).scoresK :=
    (Pipeline.withArrays_arr spec0 launch0.win.arr_inj c _ _ 10).trans (final_scores m c)
  have e12 : Pipeline.withArrays (cfgs 0).spec c (V0 m c) (fun w => (dats m 0 c).arrAt w (cfgs 0).N) (Proc.devRef .tc main_v31_2)
      = AggSpec.arr (kInp3 m c).nfeat :=
    (Pipeline.withArrays_arr spec0 launch0.win.arr_inj c _ _ 12).trans (final_nfeat m c)
  unfold Pipeline.afterTail₀
  show StableHlo.after hostOps1 _ (Proc.devRef .tc main_v32) = _
  after_results
  rw [e10, e12]
  rfl

/-- The run: the first two results are arrays of the region, read after its last write-back; the third is what the host line
    leaves; an argument that a window stages is never written back, and the others bypass the region and are written by no
    host line. -/
theorem run3 : θ_run (defs (F := Ideal)) (onTc (τ := τ) (main (F := Ideal))) ⟨m, fun _ => 0, ρ⟩ (fun r => ∀ c : Dev nD,
      r.2.mem ((c.tc : Thread nD τ).loc main_v31_0) = AggSpec.arr (kInp3 m c).scoresK
      ∧ r.2.mem ((c.tc : Thread nD τ).loc main_v31_1) = AggSpec.sigArr (kInp3 m c).scoresK
      ∧ r.2.mem ((c.tc : Thread nD τ).loc main_v32)
          = AggSpec.catArr concatenates_S4096x32_S4096x32_S4096x64_d1 (kInp3 m c).scoresK (kInp3 m c).nfeat
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  exact (θ_run defs _ _).mono (fun _ h c => ⟨((h c).1 10).trans (final_scores m c),
      ((h c).1 11).trans (final_snorm m c),
      ((h c).2 main_v32 (Pipeline.mem_restRefs_of main_v32 (by decide) (by decide))).trans (joined m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).2 main_arg8 (Pipeline.mem_restRefs_of main_arg8 (by decide) (by decide))).trans (W_main_arg8 m (dats m) c),
      ((h c).1 8).trans (((dats m 0 c).arrAt_in 8 rfl _).trans ((A_eq m c 8).trans (V_main_arg9 m c))),
      ((h c).2 main_arg10 (Pipeline.mem_restRefs_of main_arg10 (by decide) (by decide))).trans (W_main_arg10 m (dats m) c)⟩)
    (run_main m ρ)

end Cert.KernelIdeal.KValue

end
-- ==== Proof.HostGathered.lean ====
/-
  The three [4096, 4, 64] arrays the region finds, as terms over the launched arguments: the host lines before the region
  flatten the neighbours, wrap negative positions by the table's length, read whole rows of the two node tables and single
  words of the edge-type table, convert the embedding words to reals, and reshape.  Each array is the reshape of a gathered
  array of the specification.
-/
import proofs.«430323_j53145925320941_1_alg».proof.Proof.KernelData
import Idealize.ShloMosaic.Lib.StableHlo.Run

noncomputable section

namespace Cert.KernelIdeal.KData

open Cert.KernelIdeal Cert.KernelIdeal.Gen Idealize.ShloMosaic Idealize.ShloMosaic.ValueIdx Idealize.SL.Sem

variable (m : (ℓ : Loc nD τ sig) → Buf (Elt Ideal) ℓ)

/-- The edge words: the rows of the node-to-edges table at the wrapped neighbours, [16384, 64] reshaped to [4096, 4, 64]. -/
theorem v24_eq (c : Dev nD) :
    (V m c main_v24 : S4096x4x64.Idx → BitVec 32)
      = shapeCast S4096x4x64
          (AggSpec.rowsOf (m ((c.tc : Thread nD τ).loc main_arg3)) (m ((c.tc : Thread nD τ).loc main_arg0)))
          shapeCasts_S16384x64_S4096x4x64 := by
  show StableHlo.after hostOps0 (fun b => m (c, b)) (Proc.devRef .tc main_v24) = _
  after_results_simp
  rfl

/-- The embeddings: the rows of the node-embedding table at the wrapped neighbours, each word converted to a real, [16384, 64]
    reshaped to [4096, 4, 64]. -/
theorem v25_eq (c : Dev nD) :
    (V m c main_v25 : S4096x4x64.Idx → EReal)
      = shapeCast S4096x4x64
          (sitofp (F := Ideal) .f32
            (AggSpec.rowsOf (m ((c.tc : Thread nD τ).loc main_arg5)) (m ((c.tc : Thread nD τ).loc main_arg0))))
          shapeCasts_S16384x64_S4096x4x64 := by
  show StableHlo.after hostOps0 (fun b => m (c, b)) (Proc.devRef .tc main_v25) = _
  after_results_simp
  rfl

/-- The type words: the edge-type table at the flattened, wrapped edge words, [1048576] reshaped to [4096, 4, 64]. -/
theorem v26_eq (c : Dev nD) :
    (V m c main_v26 : S4096x4x64.Idx → BitVec 32)
      = shapeCast S4096x4x64
          (AggSpec.typesOf (m ((c.tc : Thread nD τ).loc main_arg4))
            (AggSpec.rowsOf (m ((c.tc : Thread nD τ).loc main_arg3)) (m ((c.tc : Thread nD τ).loc main_arg0))))
          shapeCasts_S1048576_S4096x4x64 := by
  show StableHlo.after hostOps0 (fun b => m (c, b)) (Proc.devRef .tc main_v26) = _
  after_results_simp
  rfl

end Cert.KernelIdeal.KData

end
-- ==== Proof.HostReshaped.lean ====
/-
  The two [4096, 1] columns and the two [1, 32] bias rows the region finds: the host lines before the region reshape the
  training edges, the labels and the two biases, and touch them in no other way.
-/
import proofs.«430323_j53145925320941_1_alg».proof.Proof.KernelData
import Idealize.ShloMosaic.Lib.StableHlo.Run

noncomputable section

namespace Cert.KernelIdeal.KData

open Cert.KernelIdeal Cert.KernelIdeal.Gen Idealize.ShloMosaic Idealize.ShloMosaic.ValueIdx Idealize.SL.Sem

variable (m : (ℓ : Loc nD τ sig) → Buf (Elt Ideal) ℓ)

/-- The training edges as a column. -/
theorem v27_eq (c : Dev nD) :
    (V m c main_v27 : S4096x1.Idx → BitVec 32)
      = shapeCast S4096x1 (m ((c.tc : Thread nD τ).loc main_arg1)) shapeCasts_S4096_S4096x1 := by
  show StableHlo.after hostOps0 (fun b => m (c, b)) (Proc.devRef .tc main_v27) = _
  after_results_simp
  rfl

/-- The labels as a column. -/
theorem v28_eq (c : Dev nD) :
    (V m c main_v28 : S4096x1.Idx → BitVec 32)
      = shapeCast S4096x1 (m ((c.tc : Thread nD τ).loc main_arg2)) shapeCasts_S4096_S4096x1 := by
  show StableHlo.after hostOps0 (fun b => m (c, b)) (Proc.devRef .tc main_v28) = _
  after_results_simp
  rfl

/-- The first bias as a row. -/
theorem v29_eq (c : Dev nD) :
    (V m c main_v29 : S1x32.Idx → EReal)
      = shapeCast S1x32 (m ((c.tc : Thread nD τ).loc main_arg8)) shapeCasts_S32_S1x32 := by
  show StableHlo.after hostOps0 (fun b => m (c, b)) (Proc.devRef .tc main_v29) = _
  after_results_simp
  rfl

/-- The second bias as a row. -/
theorem v30_eq (c : Dev nD) :
    (V m c main_v30 : S1x32.Idx → EReal)
      = shapeCast S1x32 (m ((c.tc : Thread nD τ).loc main_arg10)) shapeCasts_S32_S1x32 := by
  show StableHlo.after hostOps0 (fun b => m (c, b)) (Proc.devRef .tc main_v30) = _
  after_results_simp
  rfl

end Cert.KernelIdeal.KData

end
-- ==== Proof.KernelInputs.lean ====
/-
  The arrays the idealized kernel's region finds are the gathered arrays of the eleven inputs: the host lines before the
  region flatten the neighbours, wrap and read the two node tables and the edge-type table, and reshape.
-/
import proofs.«430323_j53145925320941_1_alg».proof.Proof.KernelData
import proofs.«430323_j53145925320941_1_alg».proof.Proof.HostGathered
import proofs.«430323_j53145925320941_1_alg».proof.Proof.HostReshaped
import Idealize.ShloMosaic.Lib.Pipeline.Value
import Idealize.ShloMosaic.Lib.ValueLayout

noncomputable section

namespace Cert.KernelIdeal.KData

open Cert.KernelIdeal Cert.KernelIdeal.Gen Idealize.ShloMosaic Idealize.ShloMosaic.ValueIdx Idealize.SL.Sem

variable (m : (ℓ : Loc nD τ sig) → Buf (Elt Ideal) ℓ)

/-! ## A reshape reads its operand at the same row-major position -/

/-- [16384, 64] as [4096, 4, 64]: entry (b, h, s) is entry (4·b + h, s). -/
theorem reshape_rows {α : Type} (x : S16384x64.Idx → α) (hc : S16384x64.ShapeCasts S4096x4x64)
    (b : Fin 4096) (h : Fin 4) (s : Fin 64) :
    shapeCast S4096x4x64 x hc (ix3 b h s) = x (ix2 ⟨4 * b.val + h.val, by omega⟩ s) :=
  shapeCast_apply x hc _ _ (by
    rw [Shape.rowMajor_val_two, Shape.rowMajor_val_three]
    show (4 * b.val + h.val) * 64 + s.val = (b.val * 4 + h.val) * 64 + s.val
    omega)

/-- [1048576] as [4096, 4, 64]: entry (b, h, s) is entry 256·b + 64·h + s. -/
theorem reshape_flat {α : Type} (x : S1048576.Idx → α) (hc : S1048576.ShapeCasts S4096x4x64)
    (b : Fin 4096) (h : Fin 4) (s : Fin 64) :
    shapeCast S4096x4x64 x hc (ix3 b h s) = x (ix1 ⟨256 * b.val + 64 * h.val + s.val, by omega⟩) :=
  shapeCast_apply x hc _ _ (by
    rw [Shape.rowMajor_val_one, Shape.rowMajor_val_three]
    show 256 * b.val + 64 * h.val + s.val = (b.val * 4 + h.val) * 64 + s.val
    omega)

/-- [4096] as a [4096, 1] column: entry (b, 0) is entry b. -/
theorem reshape_col {α : Type} (x : S4096.Idx → α) (hc : S4096.ShapeCasts S4096x1) (b : Fin 4096) :
    shapeCast S4096x1 x hc (ix2 b (0 : Fin 1)) = x (ix1 b) :=
  shapeCast_apply x hc _ _ (by
    rw [Shape.rowMajor_val_one, Shape.rowMajor_val_two]
    show b.val = b.val * 1 + 0
    omega)

/-! ## The data, field by field -/

/-- The data of the 4096 rows from the eleven arrays as launched. -/
abbrev argInp (c : Dev nD) : AggSpec.Inp 4096 :=
  AggSpec.fullInp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- The edge words: row 4·b + h of the gathered rows. -/
theorem kInp3_ne (c : Dev nD) : (kInp3 m c).ne = (argInp m c).ne := by
  funext b h s
  dsimp only [kInp3, AggSpec.Inp.of3]
  rw [v24_eq, reshape_rows]
  rfl

/-- The type words: position 256·b + 64·h + s of the gathered types. -/
theorem kInp3_ty (c : Dev nD) : (kInp3 m c).ty = (argInp m c).ty := by
  funext b h s
  dsimp only [kInp3, AggSpec.Inp.of3]
  rw [v26_eq, reshape_flat]
  rfl

/-- The embeddings: the gathered word of row 4·b + h read signed, as a real. -/
theorem kInp3_emb (c : Dev nD) : (kInp3 m c).emb = (argInp m c).emb := by
  funext b h e
  dsimp only [kInp3, AggSpec.Inp.of3]
  rw [v25_eq, reshape_rows]
  rfl

/-- The training edges. -/
theorem kInp3_th (c : Dev nD) : (kInp3 m c).th = (argInp m c).th := by
  funext b
  dsimp only [kInp3, AggSpec.Inp.of3]
  rw [v27_eq, reshape_col]
  rfl

/-- The labels. -/
theorem kInp3_lbl (c : Dev nD) : (kInp3 m c).lbl = (argInp m c).lbl := by
  funext b
  dsimp only [kInp3, AggSpec.Inp.of3]
  rw [v28_eq, reshape_col]
  rfl

/-- The type features: no host line writes them. -/
theorem kInp3_tf (c : Dev nD) : (kInp3 m c).tf = (argInp m c).tf := by
  funext t k
  dsimp only [kInp3, AggSpec.Inp.of3]
  rw [V_main_arg6]
  rfl

/-- The first weights: no host line writes them. -/
theorem kInp3_w1 (c : Dev nD) : (kInp3 m c).w1 = (argInp m c).w1 := by
  funext k j
  dsimp only [kInp3, AggSpec.Inp.of3]
  rw [V_main_arg7]
  rfl

/-- The first bias: entry (0, j) of the row is entry j. -/
theorem kInp3_b1 (c : Dev nD) : (kInp3 m c).b1 = (argInp m c).b1 := by
  funext j
  dsimp only [kInp3, AggSpec.Inp.of3]
  rw [v29_eq, shapeCast_a_1a_apply]
  rfl

/-- The second weights: no host line writes them. -/
theorem kInp3_w2 (c : Dev nD) : (kInp3 m c).w2 = (argInp m c).w2 := by
  funext e j
  dsimp only [kInp3, AggSpec.Inp.of3]
  rw [V_main_arg9]
  rfl

/-- The second bias: entry (0, j) of the row is entry j. -/
theorem kInp3_b2 (c : Dev nD) : (kInp3 m c).b2 = (argInp m c).b2 := by
  funext j
  dsimp only [kInp3, AggSpec.Inp.of3]
  rw [v30_eq, shapeCast_a_1a_apply]
  rfl

/-! ## The data -/

theorem kInp3_eq (c : Dev nD) :
    kInp3 m c = AggSpec.fullInp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show kInp3 m c = argInp m c
  exact AggSpec.Inp.ext (kInp3_ne m c) (kInp3_ty m c) (kInp3_emb m c) (kInp3_th m c) (kInp3_lbl m c) (kInp3_tf m c)
    (kInp3_w1 m c) (kInp3_b1 m c) (kInp3_w2 m c) (kInp3_b2 m c)

end Cert.KernelIdeal.KData

end
-- ==== Proof.LibRowGather.lean ====
/-
  A general lemma, free of any program: reading whole rows of a rank-2 table at a column of start positions.
-/
import Idealize.ShloMosaic.Lib.ValueIdx
import Idealize.ShloMosaic.Lib.StableHlo.Predicate

noncomputable section

namespace RowGather

open Idealize.ShloMosaic Idealize.ShloMosaic.ValueIdx

/-- `table[idx]` over an [N, C] table with the start positions as an [R, 1] column: the first operand axis is collapsed and
    start-indexed, the second is the one offset axis, the index vector lies on axis 1 and a slice is one whole row.  Entry
    (r, c) of the result is the table at row "position r read signed, clamped into 0 … N − 1" and column c. -/
theorem rowGather_apply {α : Type} {N C R w : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![R, 1]⟩ w) (r : Fin R) (c : Fin C) (hN : 0 < N) :
    Host.gather d x idx (ix2 r c) = x (ix2 ⟨min (idx (ix2 r (0 : Fin 1))).toInt.toNat (N - 1), by omega⟩ c) := by
  -- the two sides read the table at the same index: compare the operand index axis by axis
  unfold Host.gather
  congr 1
  funext a
  apply Fin.ext
  -- no operand axis is a batching axis, and the only kept operand axis is axis 1
  have hb : ∀ a : Fin 2, a ∉ d.operandBatchingDims := by intro a; rw [hob]; exact List.not_mem_nil
  have hkept : d.sKept = [1] := by
    show Shape.kept _ (d.collapsedSliceDims ++ d.operandBatchingDims) = [1]
    rw [hcoll, hob]; rfl
  match a with
  | ⟨0, _⟩ =>
    -- axis 0 is collapsed and start-indexed: no offset, no batch coordinate, the start is the clamped position
    have hk : (0 : Fin 2) ∉ d.sKept := by rw [hkept]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 r c) idx 0 + d.batchCoord (ix2 r c) 0 + d.offCoord (ix2 r c) 0
      = min (idx (ix2 r (0 : Fin 1))).toInt.toNat (N - 1)
    rw [GatherDims.batchCoord_eq_zero _ _ _ (hb 0), GatherDims.offCoord_eq_zero _ _ _ hk]
    simp only [Nat.add_zero]
    unfold GatherDims.start
    rw [dif_pos hm]
    -- the result's only batch axis is axis 0, whose coordinate at (r, c) is r
    have hbd : ∀ X : Fin 2, X ∈ d.batchDims → X = 0 := by
      intro X hX
      have : d.batchDims = [0] := by
        show Shape.kept _ d.offsetDims = [0]
        rw [hoff]; rfl
      rw [this] at hX
      exact List.mem_singleton.mp hX
    have e : ∀ X : Fin 2, X = 0 → ((ix2 r c : (⟨2, ![R, C]⟩ : Shape).Idx) X).val = r.val := by
      intro X hX; subst hX; rfl
    -- so the start position is read at (r, 0) of the column, whichever component is asked for (there is only one)
    have hsi : ∀ k : Fin d.startIndexMap.length, d.siIdx (ix2 r c) k = ix2 r (0 : Fin 1) := by
      intro k
      funext b
      match b with
      | ⟨0, _⟩ =>
        unfold GatherDims.siIdx
        rw [dif_neg (by rw [hivd]; simp)]
        unfold GatherDims.siCoord
        apply Fin.ext
        simp only [Fin.val_cast]
        exact e _ (hbd _ (List.getElem_mem _))
      | ⟨1, _⟩ =>
        unfold GatherDims.siIdx
        rw [dif_pos (by rw [hivd])]
        apply Fin.ext
        have hlen : d.startIndexMap.length = 1 := by rw [hsim]; rfl
        have hk1 := k.isLt
        show k.val = 0
        omega
    rw [hsi, hsl]
    rfl
  | ⟨1, _⟩ =>
    -- axis 1 is the kept axis: start 0 (not start-indexed), no batch coordinate, offset the result's coordinate on axis 1
    have hk : (1 : Fin 2) ∈ d.sKept := by rw [hkept]; exact List.mem_singleton.mpr rfl
    have hm : (1 : Fin 2) ∉ d.startIndexMap := by rw [hsim]; simp
    show d.start (ix2 r c) idx 1 + d.batchCoord (ix2 r c) 1 + d.offCoord (ix2 r c) 1 = c.val
    rw [GatherDims.batchCoord_eq_zero _ _ _ (hb 1)]
    unfold GatherDims.start
    rw [dif_neg hm]
    have hod : ∀ X : Fin 2, X ∈ d.offsetDims → X = 1 := by
      intro X hX
      rw [hoff] at hX
      exact List.mem_singleton.mp hX
    have e : ∀ X : Fin 2, X = 1 → ((ix2 r c : (⟨2, ![R, C]⟩ : Shape).Idx) X).val = c.val := by
      intro X hX; subst hX; rfl
    unfold GatherDims.offCoord
    rw [dif_pos hk]
    simp only [Nat.zero_add]
    exact e _ (hod _ (List.getElem_mem _))

end RowGather

end
-- ==== Proof.RefGathered.lean ====
/-
  The idealized reference's first two gathered arrays are the specification's: the edge words are the rows of the
  node-to-edges table at the flattened, wrapped neighbour nodes, and the type words are the entries of the edge-type table
  at the flattened, wrapped edge words.
-/
import proofs.«430323_j53145925320941_1_alg».proof.Proof.Gen.ReferenceIdeal.Read
import proofs.«430323_j53145925320941_1_alg».proof.Proof.AggSpec

noncomputable section

namespace Cert.ReferenceIdeal.RefValue

open Cert.ReferenceIdeal Cert.ReferenceIdeal.Gen Cert.ReferenceIdeal.Read Idealize.ShloMosaic Idealize.ShloMosaic.ValueIdx

/-- The edge words the reference reads are the specification's rows of the node-to-edges table. -/
theorem val_edges (x0 : (⟨S4096x4, .i32⟩ : BufTy).Contents (Elt Ideal)) (x3 : (⟨S100000x64, .i32⟩ : BufTy).Contents (Elt Ideal)) :
    val_main_v7 (F := Ideal) x0 x3 = AggSpec.rowsOf x3 x0 := rfl

/-- The two stacked row-major reshapes [16384, 64] → [4096, 256] → [1048576] read the edge words at the position the one
    reshape [16384, 64] → [1048576] reads. -/
theorem val_flat_edges (x0 : (⟨S4096x4, .i32⟩ : BufTy).Contents (Elt Ideal)) (x3 : (⟨S100000x64, .i32⟩ : BufTy).Contents (Elt Ideal))
    (h : S16384x64.ShapeCasts S1048576) :
    val_main_v29 (F := Ideal) x0 x3 = shapeCast S1048576 (AggSpec.rowsOf x3 x0) h := by
  funext i
  have hi : (i 0).val < 1048576 := (i 0).isLt
  rw [val_main_v29_apply, val_main_v8_apply, val_edges]
  refine (shapeCast_apply _ h i _ ?_).symm
  rewrite [Shape.rowMajor_val_two, Shape.rowMajor_val_one]
  show ((i 0).val / 256 * 256 + (i 0).val % 256) / 64 * 64 + ((i 0).val / 256 * 256 + (i 0).val % 256) % 64 = (i 0).val
  omega

/-- The type words the reference reads are the specification's entries of the edge-type table. -/
theorem val_types (x0 : (⟨S4096x4, .i32⟩ : BufTy).Contents (Elt Ideal)) (x3 : (⟨S100000x64, .i32⟩ : BufTy).Contents (Elt Ideal))
    (x4 : (⟨S500000, .i32⟩ : BufTy).Contents (Elt Ideal)) :
    val_main_v36 (F := Ideal) x0 x3 x4 = AggSpec.typesOf x4 (AggSpec.rowsOf x3 x0) := by
  have e : val_main_v34 (F := Ideal) x0 x3
      = fun i : S1048576.Idx => AggSpec.wrapBy 500000#32 (shapeCast S1048576 (AggSpec.rowsOf x3 x0) (by decide) i) := by
    rw [← val_flat_edges x0 x3]
    rfl
  unfold val_main_v36 val_main_v35
  rw [e]
  rfl

end Cert.ReferenceIdeal.RefValue

end
-- ==== Proof.RefMask.lean ====
/-
  The idealized reference's mask (one where a sampled edge differs from the row's training edge) and its divisor (the
  number of counted samples of a slot, at least one) are the specification's.
-/
import proofs.«430323_j53145925320941_1_alg».proof.Proof.Gen.ReferenceIdeal.Read
import proofs.«430323_j53145925320941_1_alg».proof.Proof.AggSpec
import proofs.«430323_j53145925320941_1_alg».proof.Proof.RefGathered

noncomputable section

namespace Cert.ReferenceIdeal.RefValue

open Cert.ReferenceIdeal Cert.ReferenceIdeal.Gen Cert.ReferenceIdeal.Read Idealize.ShloMosaic Idealize.ShloMosaic.ValueIdx

/-- The reference's mask at sample s of slot h of row b is the specification's. -/
theorem val_mask (x0 : (⟨S4096x4, .i32⟩ : BufTy).Contents (Elt Ideal)) (x1 x2 : (⟨S4096, .i32⟩ : BufTy).Contents (Elt Ideal)) (x3 : (⟨S100000x64, .i32⟩ : BufTy).Contents (Elt Ideal)) (x4 : (⟨S500000, .i32⟩ : BufTy).Contents (Elt Ideal)) (x5 : (⟨S100000x64, .i32⟩ : BufTy).Contents (Elt Ideal)) (x6 x7 : (⟨S32x32, .f32⟩ : BufTy).Contents (Elt Ideal)) (x8 : (⟨S32, .f32⟩ : BufTy).Contents (Elt Ideal)) (x9 : (⟨S64x32, .f32⟩ : BufTy).Contents (Elt Ideal)) (x10 : (⟨S32, .f32⟩ : BufTy).Contents (Elt Ideal))
    (b : Fin 4096) (h : Fin 4) (s : Fin 64) :
    val_main_v45 (F := Ideal) x0 x1 x3 (ix4 b h s (0 : Fin 1)) = (AggSpec.fullInp x0 x1 x2 x3 x4 x5 x6 x7 x8 x9 x10).msk b h s := by
  have hb := b.isLt
  have hh := h.isLt
  have hs := s.isLt
  have e8 : idx_main_v8 (idx_main_v45 (ix4 b h s (0 : Fin 1))) = ix2 (⟨4 * b.val + h.val, by omega⟩ : Fin 16384) s :=
    funext fun a => Fin.ext (by
      match a with
      | ⟨0, _⟩ =>
        show ((((b.val * 4 + h.val) * 64 + s.val) * 1 + 0) / 256 * 256 + (((b.val * 4 + h.val) * 64 + s.val) * 1 + 0) % 256) / 64 = 4 * b.val + h.val
        omega
      | ⟨1, _⟩ =>
        show ((((b.val * 4 + h.val) * 64 + s.val) * 1 + 0) / 256 * 256 + (((b.val * 4 + h.val) * 64 + s.val) * 1 + 0) % 256) % 64 = s.val
        omega)
  have e18 : idx_main_v18 (idx_main_v19 (idx_main_v45 (ix4 b h s (0 : Fin 1)))) = ix1 b :=
    funext fun a => Fin.ext (by
      match a with
      | ⟨0, _⟩ =>
        show (((b.val * 4 + h.val) * 64 + s.val) * 1 + 0) / 256 = b.val
        omega)
  rw [val_main_v45_apply, val_main_v21_apply, val_main_v20_apply, val_main_v8_apply, val_main_v19_apply, val_main_v18_apply,
    val_edges, e8, e18]
  rfl

/-- The reference's divisor of slot h of row b, at every feature, is the specification's. -/
theorem val_den (x0 : (⟨S4096x4, .i32⟩ : BufTy).Contents (Elt Ideal)) (x1 x2 : (⟨S4096, .i32⟩ : BufTy).Contents (Elt Ideal)) (x3 : (⟨S100000x64, .i32⟩ : BufTy).Contents (Elt Ideal)) (x4 : (⟨S500000, .i32⟩ : BufTy).Contents (Elt Ideal)) (x5 : (⟨S100000x64, .i32⟩ : BufTy).Contents (Elt Ideal)) (x6 x7 : (⟨S32x32, .f32⟩ : BufTy).Contents (Elt Ideal)) (x8 : (⟨S32, .f32⟩ : BufTy).Contents (Elt Ideal)) (x9 : (⟨S64x32, .f32⟩ : BufTy).Contents (Elt Ideal)) (x10 : (⟨S32, .f32⟩ : BufTy).Contents (Elt Ideal))
    (b : Fin 4096) (h : Fin 4) (k : Fin 32) :
    val_main_v52 (F := Ideal) x0 x1 x3 (ix3 b h k) = (AggSpec.fullInp x0 x1 x2 x3 x4 x5 x6 x7 x8 x9 x10).den b h := by
  have e : ∀ s : Fin 64, idx_main_v49 (idx_main_v52 (ix3 b h k)) s = ix4 b h s (0 : Fin 1) := fun s =>
    funext fun a => Fin.ext (by match a with | ⟨0, _⟩ => rfl | ⟨1, _⟩ => rfl | ⟨2, _⟩ => rfl | ⟨3, _⟩ => rfl)
  rw [val_main_v52_apply, val_main_v51_apply, val_main_v49_apply, val_main_v50_apply, val_main_cst_9_apply, val_main_cst_10_apply]
  simp only [e, val_mask x0 x1 x2 x3 x4 x5 x6 x7 x8 x9 x10, Ideal.maximumf_def, Ideal.ofBits_def, Ideal.ofBits_zero_f32, zero_add]
  rfl

end Cert.ReferenceIdeal.RefValue

end
-- ==== Proof.RefRows.lean ====
/-
  The idealized reference's two reads of the 32-row feature table (at the label words and at the type words, negative
  words wrapped by 32) are the specification's ROW form: the row whose number is the wrapped word, read signed and clamped.
-/
import proofs.«430323_j53145925320941_1_alg».proof.Proof.Gen.ReferenceIdeal.Read
import proofs.«430323_j53145925320941_1_alg».proof.Proof.AggSpec
import proofs.«430323_j53145925320941_1_alg».proof.Proof.RefGathered
import proofs.«430323_j53145925320941_1_alg».proof.Proof.LibRowGather

noncomputable section

namespace Cert.ReferenceIdeal.RefValue

open Cert.ReferenceIdeal Cert.ReferenceIdeal.Gen Cert.ReferenceIdeal.Read Idealize.ShloMosaic Idealize.ShloMosaic.ValueIdx

/-- The reference's feature row at the label of row b is the specification's ROW form. -/
theorem val_self_row (x0 : (⟨S4096x4, .i32⟩ : BufTy).Contents (Elt Ideal)) (x1 x2 : (⟨S4096, .i32⟩ : BufTy).Contents (Elt Ideal)) (x3 : (⟨S100000x64, .i32⟩ : BufTy).Contents (Elt Ideal)) (x4 : (⟨S500000, .i32⟩ : BufTy).Contents (Elt Ideal)) (x5 : (⟨S100000x64, .i32⟩ : BufTy).Contents (Elt Ideal)) (x6 x7 : (⟨S32x32, .f32⟩ : BufTy).Contents (Elt Ideal)) (x8 : (⟨S32, .f32⟩ : BufTy).Contents (Elt Ideal)) (x9 : (⟨S64x32, .f32⟩ : BufTy).Contents (Elt Ideal)) (x10 : (⟨S32, .f32⟩ : BufTy).Contents (Elt Ideal))
    (b : Fin 4096) (k : Fin 32) :
    val_main_v28 (F := Ideal) x2 x6 (ix2 b k) = (AggSpec.fullInp x0 x1 x2 x3 x4 x5 x6 x7 x8 x9 x10).selfR b k := by
  have e : idx_main_v27 (ix2 b (0 : Fin 1)) = ix1 b := funext fun a => Fin.ext (by match a with | ⟨0, _⟩ => rfl)
  have e27 : val_main_v27 (F := Ideal) x2 (ix2 b (0 : Fin 1)) = AggSpec.wrap32 (x2 (ix1 b)) := by
    rw [val_main_v27_apply, e]
    rfl
  unfold val_main_v28
  rw [RowGather.rowGather_apply gather_S32x32_S4096x1_S4096x32_1_0_n_n_0_1_132 rfl rfl rfl rfl rfl rfl x6
    (val_main_v27 (F := Ideal) x2) b k (by decide)]
  show x6 _ = x6 (ix2 (AggSpec.rowOf (x2 (ix1 b))) k)
  refine congrArg x6 (funext fun a => Fin.ext ?_)
  match a with
  | ⟨0, _⟩ => exact congrArg (fun w : BitVec 32 => min w.toInt.toNat 31) e27
  | ⟨1, _⟩ => rfl

/-- The reference's feature row at the type of sample s of slot h of row b is the specification's ROW form. -/
theorem val_type_row (x0 : (⟨S4096x4, .i32⟩ : BufTy).Contents (Elt Ideal)) (x1 x2 : (⟨S4096, .i32⟩ : BufTy).Contents (Elt Ideal)) (x3 : (⟨S100000x64, .i32⟩ : BufTy).Contents (Elt Ideal)) (x4 : (⟨S500000, .i32⟩ : BufTy).Contents (Elt Ideal)) (x5 : (⟨S100000x64, .i32⟩ : BufTy).Contents (Elt Ideal)) (x6 x7 : (⟨S32x32, .f32⟩ : BufTy).Contents (Elt Ideal)) (x8 : (⟨S32, .f32⟩ : BufTy).Contents (Elt Ideal)) (x9 : (⟨S64x32, .f32⟩ : BufTy).Contents (Elt Ideal)) (x10 : (⟨S32, .f32⟩ : BufTy).Contents (Elt Ideal))
    (b : Fin 4096) (h : Fin 4) (s : Fin 64) (k : Fin 32) :
    val_main_v44 (F := Ideal) x0 x3 x4 x6 (ix4 b h s k)
      = (AggSpec.fullInp x0 x1 x2 x3 x4 x5 x6 x7 x8 x9 x10).tf (AggSpec.rowOf ((AggSpec.fullInp x0 x1 x2 x3 x4 x5 x6 x7 x8 x9 x10).ty b h s)) k := by
  have hb := b.isLt
  have hh := h.isLt
  have hs := s.isLt
  have hk := k.isLt
  have e44 : idx_main_v44 (ix4 b h s k) = ix2 (⟨256 * b.val + 64 * h.val + s.val, by omega⟩ : Fin 1048576) k :=
    funext fun a => Fin.ext (by
      match a with
      | ⟨0, _⟩ =>
        show (((b.val * 4 + h.val) * 64 + s.val) * 32 + k.val) / 32 = 256 * b.val + 64 * h.val + s.val
        omega
      | ⟨1, _⟩ =>
        show (((b.val * 4 + h.val) * 64 + s.val) * 32 + k.val) % 32 = k.val
        omega)
  have e : idx_main_v42 (ix2 (⟨256 * b.val + 64 * h.val + s.val, by omega⟩ : Fin 1048576) (0 : Fin 1))
      = ix1 (⟨256 * b.val + 64 * h.val + s.val, by omega⟩ : Fin 1048576) :=
    funext fun a => Fin.ext (by match a with | ⟨0, _⟩ => rfl)
  have e42 : val_main_v42 (F := Ideal) x0 x3 x4 (ix2 (⟨256 * b.val + 64 * h.val + s.val, by omega⟩ : Fin 1048576) (0 : Fin 1))
      = AggSpec.wrap32 ((AggSpec.fullInp x0 x1 x2 x3 x4 x5 x6 x7 x8 x9 x10).ty b h s) := by
    rw [val_main_v42_apply, e]
    show AggSpec.wrap32 (val_main_v36 (F := Ideal) x0 x3 x4 (ix1 (⟨256 * b.val + 64 * h.val + s.val, by omega⟩ : Fin 1048576))) = _
    rw [val_types]
    rfl
  rw [val_main_v44_apply, e44]
  unfold val_main_v43
  rw [RowGather.rowGather_apply gather_S32x32_S1048576x1_S1048576x32_1_0_n_n_0_1_132 rfl rfl rfl rfl rfl rfl x6
    (val_main_v42 (F := Ideal) x0 x3 x4) _ k (by decide)]
  show x6 _ = x6 (ix2 (AggSpec.rowOf ((AggSpec.fullInp x0 x1 x2 x3 x4 x5 x6 x7 x8 x9 x10).ty b h s)) k)
  refine congrArg x6 (funext fun a => Fin.ext ?_)
  match a with
  | ⟨0, _⟩ => exact congrArg (fun w : BitVec 32 => min w.toInt.toNat 31) e42
  | ⟨1, _⟩ => rfl

end Cert.ReferenceIdeal.RefValue

end
-- ==== Proof.RefSlots.lean ====
/-
  The idealized reference's slot averages are the specification's ROW form.
-/
import proofs.«430323_j53145925320941_1_alg».proof.Proof.Gen.ReferenceIdeal.Read
import proofs.«430323_j53145925320941_1_alg».proof.Proof.AggSpec
import proofs.«430323_j53145925320941_1_alg».proof.Proof.RefMask
import proofs.«430323_j53145925320941_1_alg».proof.Proof.RefRows

noncomputable section

namespace Cert.ReferenceIdeal.RefValue

open Cert.ReferenceIdeal Cert.ReferenceIdeal.Gen Cert.ReferenceIdeal.Read Idealize.ShloMosaic Idealize.ShloMosaic.ValueIdx

/-- The reference's average of slot h of row b at feature k is the specification's ROW form: the masked sum of the samples'
    feature rows over the divisor. -/
theorem val_slot_avg (x0 : (⟨S4096x4, .i32⟩ : BufTy).Contents (Elt Ideal)) (x1 x2 : (⟨S4096, .i32⟩ : BufTy).Contents (Elt Ideal)) (x3 : (⟨S100000x64, .i32⟩ : BufTy).Contents (Elt Ideal)) (x4 : (⟨S500000, .i32⟩ : BufTy).Contents (Elt Ideal)) (x5 : (⟨S100000x64, .i32⟩ : BufTy).Contents (Elt Ideal)) (x6 x7 : (⟨S32x32, .f32⟩ : BufTy).Contents (Elt Ideal)) (x8 : (⟨S32, .f32⟩ : BufTy).Contents (Elt Ideal)) (x9 : (⟨S64x32, .f32⟩ : BufTy).Contents (Elt Ideal)) (x10 : (⟨S32, .f32⟩ : BufTy).Contents (Elt Ideal))
    (b : Fin 4096) (h : Fin 4) (k : Fin 32) :
    val_main_v53 (F := Ideal) x0 x1 x3 x4 x6 (ix3 b h k) = (AggSpec.fullInp x0 x1 x2 x3 x4 x5 x6 x7 x8 x9 x10).avgR b h k := by
  have e48 : ∀ s : Fin 64, idx_main_v48 (ix3 b h k) s = ix4 b h s k := fun s =>
    funext fun a => Fin.ext (by match a with | ⟨0, _⟩ => rfl | ⟨1, _⟩ => rfl | ⟨2, _⟩ => rfl | ⟨3, _⟩ => rfl)
  have e46 : ∀ s : Fin 64, idx_main_v46 (ix4 b h s k) = ix4 b h s (0 : Fin 1) := fun s =>
    funext fun a => Fin.ext (by match a with | ⟨0, _⟩ => rfl | ⟨1, _⟩ => rfl | ⟨2, _⟩ => rfl | ⟨3, _⟩ => rfl)
  rw [val_main_v53_apply, val_main_v48_apply, val_main_cst_apply, val_den x0 x1 x2 x3 x4 x5 x6 x7 x8 x9 x10]
  simp only [e48, val_main_v47_apply, val_main_v46_apply, e46, val_type_row x0 x1 x2 x3 x4 x5 x6 x7 x8 x9 x10, val_mask x0 x1 x2 x3 x4 x5 x6 x7 x8 x9 x10,
    Ideal.hostDivf_def, Ideal.mulf_def, Ideal.ofBits_def, Ideal.ofBits_zero_f32, zero_add]
  rfl

end Cert.ReferenceIdeal.RefValue

end
-- ==== Proof.RefScores.lean ====
/-
  The idealized reference's scores, entry by entry, are the aggregation of the gathered arrays (ROW form).
-/
import proofs.«430323_j53145925320941_1_alg».proof.Proof.Gen.ReferenceIdeal.Read
import proofs.«430323_j53145925320941_1_alg».proof.Proof.AggSpec
import proofs.«430323_j53145925320941_1_alg».proof.Proof.LibRowGather
import proofs.«430323_j53145925320941_1_alg».proof.Proof.RefSlots

noncomputable section

namespace Cert.ReferenceIdeal.RefValue

open Cert.ReferenceIdeal Cert.ReferenceIdeal.Gen Cert.ReferenceIdeal.Read Idealize.ShloMosaic Idealize.ShloMosaic.ValueIdx

theorem val_scores (x0 : (⟨S4096x4, .i32⟩ : BufTy).Contents (Elt Ideal)) (x1 x2 : (⟨S4096, .i32⟩ : BufTy).Contents (Elt Ideal)) (x3 : (⟨S100000x64, .i32⟩ : BufTy).Contents (Elt Ideal)) (x4 : (⟨S500000, .i32⟩ : BufTy).Contents (Elt Ideal)) (x5 : (⟨S100000x64, .i32⟩ : BufTy).Contents (Elt Ideal)) (x6 x7 : (⟨S32x32, .f32⟩ : BufTy).Contents (Elt Ideal)) (x8 : (⟨S32, .f32⟩ : BufTy).Contents (Elt Ideal)) (x9 : (⟨S64x32, .f32⟩ : BufTy).Contents (Elt Ideal)) (x10 : (⟨S32, .f32⟩ : BufTy).Contents (Elt Ideal)) :
    val_main_v61 (F := Ideal) x0 x1 x2 x3 x4 x6 x7 x8
      = AggSpec.arr (AggSpec.fullInp x0 x1 x2 x3 x4 x5 x6 x7 x8 x9 x10).scoresR := by
  funext i
  obtain ⟨b, j, rfl⟩ : ∃ (b : Fin 4096) (j : Fin 32), i = ix2 b j := ⟨i 0, i 1, eq_ix2 i⟩
  -- the product with w1 contracts feature k: row b of the left operand, column j of the right
  have el : ∀ k : Fin 32, lidx_main_v58 (ix2 b j) k = ix2 b k := fun k =>
    funext fun a => Fin.ext (by match a with | ⟨0, _⟩ => rfl | ⟨1, _⟩ => rfl)
  have er : ∀ k : Fin 32, ridx_main_v58 (ix2 b j) k = ix2 k j := fun k =>
    funext fun a => Fin.ext (by match a with | ⟨0, _⟩ => rfl | ⟨1, _⟩ => rfl)
  -- the mean over the slots sums slot h of row b at feature k
  have e54 : ∀ (k : Fin 32) (h : Fin 4), idx_main_v54 (ix2 b k) h = ix3 b h k := fun k h =>
    funext fun a => Fin.ext (by match a with | ⟨0, _⟩ => rfl | ⟨1, _⟩ => rfl | ⟨2, _⟩ => rfl)
  -- the bias row is read at column j
  have e60 : idx_main_v59 (idx_main_v60 (ix2 b j)) = ix1 j :=
    funext fun a => Fin.ext (by match a with | ⟨0, _⟩ => rfl)
  rw [val_main_v61_apply, val_main_v58_apply, val_main_v60_apply, val_main_v59_apply, e60]
  simp only [el, er, val_main_v57_apply, val_main_v56_apply, val_main_v54_apply, val_main_v55_apply, val_main_cst_11_apply,
    val_main_cst_12_apply, e54, val_slot_avg x0 x1 x2 x3 x4 x5 x6 x7 x8 x9 x10, val_self_row x0 x1 x2 x3 x4 x5 x6 x7 x8 x9 x10,
    Ideal.addf_def, Ideal.hostDivf_def, Ideal.ofBits_def, Ideal.ofBits_zero_f32, zero_add]
  rfl

end Cert.ReferenceIdeal.RefValue

end
-- ==== Proof.RefRest.lean ====
/-
  The idealized reference's other two results: the logistic function of the scores, and the scores joined with the node
  features (the mean of the four gathered embedding rows through the second linear layer).
-/
import proofs.«430323_j53145925320941_1_alg».proof.Proof.RefScores
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx

/-- The rows read from the embedding table are the table's rows at the flattened, wrapped neighbour nodes. -/
theorem gathered_rows (x0 : (⟨S4096x4, .i32⟩ : BufTy).Contents (Elt Ideal)) (x5 : (⟨S100000x64, .i32⟩ : BufTy).Contents (Elt Ideal)) :
    val_main_v15 (F := Ideal) x0 x5 = AggSpec.rowsOf x5 x0 := rfl

/-- Regrouping [16384, 64] as [4096, 4, 64] reads entry (b, h, e) at row 4·b + h, column e. -/
theorem row_of_slot (b : Fin 4096) (h : Fin 4) (e : Fin 64) :
    idx_main_v16 (ix3 b h e) = ix2 (⟨4 * b.val + h.val, by omega⟩ : Fin 16384) e :=
  funext fun a => Fin.ext (by
    match a with
    | ⟨0, _⟩ => show ((b.val * 4 + h.val) * 64 + e.val) / 64 = 4 * b.val + h.val; omega
    | ⟨1, _⟩ => show ((b.val * 4 + h.val) * 64 + e.val) % 64 = e.val; omega)

/-- The embedding of slot h of row b at feature e: the gathered word at row 4·b + h, read signed, as a real. -/
theorem embedding_at (x0 : (⟨S4096x4, .i32⟩ : BufTy).Contents (Elt Ideal)) (x5 : (⟨S100000x64, .i32⟩ : BufTy).Contents (Elt Ideal))
    (b : Fin 4096) (h : Fin 4) (e : Fin 64) :
    val_main_v17 (F := Ideal) x0 x5 (ix3 b h e)
      = (((AggSpec.rowsOf x5 x0 (ix2 (⟨4 * b.val + h.val, by omega⟩ : Fin 16384) e)).toInt : ℝ) : EReal) := by
  rw [val_main_v17_apply, val_main_v16_apply, gathered_rows, row_of_slot]
  rfl

theorem val_nfeat (x0 : (⟨S4096x4, .i32⟩ : BufTy).Contents (Elt Ideal)) (x1 x2 : (⟨S4096, .i32⟩ : BufTy).Contents (Elt Ideal)) (x3 : (⟨S100000x64, .i32⟩ : BufTy).Contents (Elt Ideal)) (x4 : (⟨S500000, .i32⟩ : BufTy).Contents (Elt Ideal)) (x5 : (⟨S100000x64, .i32⟩ : BufTy).Contents (Elt Ideal)) (x6 x7 : (⟨S32x32, .f32⟩ : BufTy).Contents (Elt Ideal)) (x8 : (⟨S32, .f32⟩ : BufTy).Contents (Elt Ideal)) (x9 : (⟨S64x32, .f32⟩ : BufTy).Contents (Elt Ideal)) (x10 : (⟨S32, .f32⟩ : BufTy).Contents (Elt Ideal)) :
    val_main_v68 (F := Ideal) x0 x5 x9 x10
      = AggSpec.arr (AggSpec.fullInp x0 x1 x2 x3 x4 x5 x6 x7 x8 x9 x10).nfeat := by
  -- entry (b, j): the sum over the 64 features e of (mean over the four slots of the embedding) · w2 e j, plus b2 j
  funext i
  obtain ⟨b, j, rfl⟩ : ∃ (b : Fin 4096) (j : Fin 32), i = ix2 b j := ⟨i 0, i 1, eq_ix2 i⟩
  have eb : idx_main_v66 (idx_main_v67 (ix2 b j)) = ix1 j := funext fun a => by match a with | ⟨0, _⟩ => rfl
  have er : ∀ k : Fin 64, ridx_main_v65 (ix2 b j) k = ix2 k j := fun k => funext fun a => by
    match a with | ⟨0, _⟩ => rfl | ⟨1, _⟩ => rfl
  have es : ∀ (k : Fin 64) (h : Fin 4), idx_main_v62 (lidx_main_v65 (ix2 b j) k) h = ix3 b h k := fun k h => funext fun a => by
    match a with | ⟨0, _⟩ => rfl | ⟨1, _⟩ => rfl | ⟨2, _⟩ => rfl
  rw [val_main_v68_apply, val_main_v65_apply, val_main_v67_apply, val_main_v66_apply, eb, Ideal.addf_def]
  refine congrArg₂ (· + ·) (Finset.sum_congr rfl fun k _ => ?_) rfl
  rw [val_main_v64_apply, val_main_v62_apply, val_main_v63_apply, val_main_cst_14_apply, val_main_cst_13_apply, er k,
    Ideal.hostDivf_def, Ideal.ofBits_def, Ideal.ofBits_def, Ideal.ofBits_zero_f32, zero_add]
  refine congrArg₂ (· * ·) (congrArg₂ Ideal.div (Finset.sum_congr rfl fun h _ => ?_) rfl) rfl
  rw [es k h, embedding_at]
  rfl

theorem val_snorm (x0 : (⟨S4096x4, .i32⟩ : BufTy).Contents (Elt Ideal)) (x1 x2 : (⟨S4096, .i32⟩ : BufTy).Contents (Elt Ideal)) (x3 : (⟨S100000x64, .i32⟩ : BufTy).Contents (Elt Ideal)) (x4 : (⟨S500000, .i32⟩ : BufTy).Contents (Elt Ideal)) (x5 : (⟨S100000x64, .i32⟩ : BufTy).Contents (Elt Ideal)) (x6 x7 : (⟨S32x32, .f32⟩ : BufTy).Contents (Elt Ideal)) (x8 : (⟨S32, .f32⟩ : BufTy).Contents (Elt Ideal)) (x9 : (⟨S64x32, .f32⟩ : BufTy).Contents (Elt Ideal)) (x10 : (⟨S32, .f32⟩ : BufTy).Contents (Elt Ideal)) :
    val_main_v75 (F := Ideal) x0 x1 x2 x3 x4 x6 x7 x8
      = AggSpec.sigArr (AggSpec.fullInp x0 x1 x2 x3 x4 x5 x6 x7 x8 x9 x10).scoresR := by
  -- entry by entry: 1 / (1 + exp (− score)), which is the logistic function of the score by its definition
  funext i
  rw [val_main_v75_apply, val_main_v74_apply, val_main_cst_16_apply, val_main_v73_apply, val_main_v72_apply,
    val_main_cst_15_apply, val_main_v71_apply, val_main_v70_apply, val_scores x0 x1 x2 x3 x4 x5 x6 x7 x8 x9 x10]
  simp only [Ideal.hostDivf_def, Ideal.addf_def, Ideal.hostUnary_exp_def, Ideal.hostNegf_def, Ideal.negf_def,
    Ideal.ofBits_def, Ideal.ofBits_one_f32]
  rfl

theorem val_embed (x0 : (⟨S4096x4, .i32⟩ : BufTy).Contents (Elt Ideal)) (x1 x2 : (⟨S4096, .i32⟩ : BufTy).Contents (Elt Ideal)) (x3 : (⟨S100000x64, .i32⟩ : BufTy).Contents (Elt Ideal)) (x4 : (⟨S500000, .i32⟩ : BufTy).Contents (Elt Ideal)) (x5 : (⟨S100000x64, .i32⟩ : BufTy).Contents (Elt Ideal)) (x6 x7 : (⟨S32x32, .f32⟩ : BufTy).Contents (Elt Ideal)) (x8 : (⟨S32, .f32⟩ : BufTy).Contents (Elt Ideal)) (x9 : (⟨S64x32, .f32⟩ : BufTy).Contents (Elt Ideal)) (x10 : (⟨S32, .f32⟩ : BufTy).Contents (Elt Ideal)) :
    val_main_v69 (F := Ideal) x0 x1 x2 x3 x4 x5 x6 x7 x8 x9 x10
      = AggSpec.catArr concatenates_S4096x32_S4096x32_S4096x64_d1
          (AggSpec.fullInp x0 x1 x2 x3 x4 x5 x6 x7 x8 x9 x10).scoresR
          (AggSpec.fullInp x0 x1 x2 x3 x4 x5 x6 x7 x8 x9 x10).nfeat := by
  -- the two [4096, 32] arrays side by side along the second axis
  unfold val_main_v69
  rw [val_scores x0 x1 x2 x3 x4 x5 x6 x7 x8 x9 x10, val_nfeat x0 x1 x2 x3 x4 x5 x6 x7 x8 x9 x10]
  rfl

end Cert.ReferenceIdeal.RefValue

end
-- ==== Proof.lean ====
/-
  The certificate of the hyperedge-neighbourhood aggregation kernel against its reference.

  Both programs first gather, on the host, the 64 sampled edges of each of the four nodes of a row, the types of those edges,
  and the nodes' embeddings; these gathers are the same operations in both.  The kernel then handles sixteen blocks of 256 rows:
  per hedge slot it masks the samples that are the row's training edge, counts the remaining samples by type with a one-hot
  comparison against 0 … 31, multiplies the counts through the 32-row type-feature table, divides by the larger of the
  number of counted samples and one, averages the four slots, adds the label's feature row (again one-hot times the table),
  and applies a linear layer; the logistic function of that, and a second linear layer on the mean embedding, are its other
  results.  The reference reads the feature rows of the types and of the label directly by position.  A one-hot product
  with the table and a read by position agree exactly when the position is one of 0 … 31, which the precondition states of
  every label and every edge type; the rest is the same arithmetic in another order of summation, exact over the extended
  reals (the mask and one-hot factors are 0 or 1, so the one use of distributivity is over non-negative terms).

  The frames of the two kernel programs are the generated ones; the reference's frame is its generated run.  The idealization
  rewrote nothing, so the preservation claim is trivial.  The value claim joins: the kernel's run read block by block
  (KernelArrays over KernelBlockValue and KernelNodeFeatures), the arrays its region finds as gathers of the inputs
  (KernelInputs), the reference's run read operation by operation (RefScores, RefRest), the one-hot law (AggLaw) and the
  ranges the precondition gives (PreRanges).
-/
import proofs.«430323_j53145925320941_1_alg».proof.Defs
import proofs.«430323_j53145925320941_1_alg».proof.Proof.Gen.Kernel
import proofs.«430323_j53145925320941_1_alg».proof.Proof.Gen.Kernel.Frame
import proofs.«430323_j53145925320941_1_alg».proof.Proof.Gen.KernelIdeal
import proofs.«430323_j53145925320941_1_alg».proof.Proof.Gen.KernelIdeal.Frame
import proofs.«430323_j53145925320941_1_alg».proof.Proof.Gen.ReferenceIdeal
import proofs.«430323_j53145925320941_1_alg».proof.Proof.Gen.Pre_finite_inputs
import proofs.«430323_j53145925320941_1_alg».proof.Proof.Gen.ReferenceIdeal.Run
import proofs.«430323_j53145925320941_1_alg».proof.Proof.Gen.ReferenceIdeal.Read
import proofs.«430323_j53145925320941_1_alg».proof.Proof.AggLaw
import proofs.«430323_j53145925320941_1_alg».proof.Proof.PreRanges
import proofs.«430323_j53145925320941_1_alg».proof.Proof.KernelArrays
import proofs.«430323_j53145925320941_1_alg».proof.Proof.KernelInputs
import proofs.«430323_j53145925320941_1_alg».proof.Proof.RefRest
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The data of the 4096 rows from the kernel's eleven argument arrays. -/
def rows (m : (ℓ : Loc Cert.KernelIdeal.nD Cert.KernelIdeal.τ Cert.KernelIdeal.sig) → Buf (Elt Ideal) ℓ)
    (c : Dev Cert.KernelIdeal.nD) : AggSpec.Inp 4096 :=
  AggSpec.fullInp
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))

/-- Under the precondition the one-hot form of the scores is the row form: every type word of the data is an entry of the
    edge-type table, and every label word an entry of the labels. -/
theorem rows_law (m : (ℓ : Loc Cert.KernelIdeal.nD Cert.KernelIdeal.τ Cert.KernelIdeal.sig) → Buf (Elt Ideal) ℓ)
    (hpre : Cert.Pre_KernelIdeal m) (c : Dev Cert.KernelIdeal.nD) : (rows m c).scoresK = (rows m c).scoresR := by
  obtain ⟨hl, ht⟩ := Cert.Pre_finite_inputs.Ranges.ranges (F := Ideal) _ _ _ _ _ _ _ _ _ _ _ (hpre c)
  refine (rows m c).scoresK_eq_scoresR (fun b h s => ?_) (fun b => hl _)
  obtain ⟨i, hi⟩ := AggSpec.fullInp_ty_mem
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10)) b h s
  exact hi ▸ ht i

theorem algebraic : Cert.algebraic_KernelIdeal_ReferenceIdeal := by
  intro m ρ m' ρ' hpre hagree
  refine ⟨fun c => AggSpec.arr (rows m c).scoresR, fun c => AggSpec.sigArr (rows m c).scoresR,
    fun c => AggSpec.catArr Cert.KernelIdeal.Gen.concatenates_S4096x32_S4096x32_S4096x64_d1 (rows m c).scoresR (rows m c).nfeat, ?_, ?_⟩
  · -- the kernel: its run over the arrays its region finds, those arrays as gathers of the inputs, the one-hot law
    refine (θ_run Cert.KernelIdeal.defs _ _).mono (fun r h c => ?_) (Cert.KernelIdeal.KValue.run3 m ρ)
    have e : Cert.KernelIdeal.KData.kInp3 m c = rows m c := Cert.KernelIdeal.KData.kInp3_eq m c
    have hlaw := rows_law m hpre c
    obtain ⟨h0, h1, h2, hk⟩ := h c
    rw [e, hlaw] at h0 h1 h2
    exact ⟨h0, h1, h2, hk⟩
  · -- the reference: its run read operation by operation, at arguments that agree with the kernel's
    refine (θ_run Cert.ReferenceIdeal.defs _ _).mono (fun r h c => ?_) (Cert.ReferenceIdeal.Value.run (F := Ideal) m' ρ')
    obtain ⟨h0, h1, h2, hk⟩ := h c
    obtain ⟨a0, a1, a2, a3, a4, a5, a6, a7, a8, a9, a10⟩ := hagree c
    refine ⟨?_, ?_, ?_, hk⟩
    · rw [h0, Cert.ReferenceIdeal.Read.val_main_v61_eq,
        Cert.ReferenceIdeal.RefValue.val_scores _ _ _ _ _ (m' ((c.tc : Thread Cert.ReferenceIdeal.nD Cert.ReferenceIdeal.τ).loc Cert.ReferenceIdeal.main_arg5)) _ _ _ (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)),
        a0, a1, a2, a3, a4, a5, a6, a7, a8, a9, a10]
      rfl
    · rw [h1, Cert.ReferenceIdeal.Read.val_main_v75_eq,
        Cert.ReferenceIdeal.RefValue.val_snorm _ _ _ _ _ (m' ((c.tc : Thread Cert.ReferenceIdeal.nD Cert.ReferenceIdeal.τ).loc Cert.ReferenceIdeal.main_arg5)) _ _ _ (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)),
        a0, a1, a2, a3, a4, a5, a6, a7, a8, a9, a10]
      rfl
    · rw [h2, Cert.ReferenceIdeal.Read.val_main_v69_eq, Cert.ReferenceIdeal.RefValue.val_embed,
        a0, a1, a2, a3, a4, a5, a6, a7, a8, a9, a10]
      rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
